-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x28x28x512 : Shape := ⟨4, ![128, 28, 28, 512]⟩
abbrev S128x512 : Shape := ⟨2, ![128, 512]⟩
abbrev S_ : Shape := ⟨0, ![]⟩
abbrev S128x28x28 : Shape := ⟨3, ![128, 28, 28]⟩
abbrev S128 : Shape := ⟨1, ![128]⟩

class Facts : Prop where
  bcast_S_S128x28x28x512 : S_.BroadcastsInDim S128x28x28x512 (![] : Fin 0 → Fin S128x28x28x512.rank)
  reducesTo_S128x28x28x512_S_d0_1_2_3 : S128x28x28x512.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  reducesTo_S128x28x28x512_S128x28x28_d3 : S128x28x28x512.ReducesTo [3] S128x28x28
  bcast_S_S128x28x28 : S_.BroadcastsInDim S128x28x28 (![] : Fin 0 → Fin S128x28x28.rank)
  reducesTo_S128x28x28_S_d0_1_2 : S128x28x28.ReducesTo [0, 1, 2] S_
  reducesTo_S128x512_S128_d1 : S128x512.ReducesTo [1] S128
  bcast_S_S128 : S_.BroadcastsInDim S128 (![] : Fin 0 → Fin S128.rank)
  reducesTo_S128_S_d0 : S128.ReducesTo [0] S_

variable [Facts]

def fn_part1 {F : FTy → Type} [FloatOps F] (main_v14 : IVec S_ 1) (main_v15 : FVec F S128x512 .f32) (main_cst_5 : FVec F S_ .f32) : IVec S_ 1 :=
  let main_v16 : FVec F S128 .f32 := (fun x v => Host.reduceAdd x v reducesTo_S128x512_S128_d1 h_S_) main_v15 main_cst_5
  let main_cst_6 : FVec F S_ .f32 := constant S_ .f32 0x00000000#32
  let main_v17 : FVec F S128 .f32 := broadcastInDim S128 ![] bcast_S_S128 main_cst_6
  let main_v18 : IVec S128 1 := cmpf .ogt main_v16 main_v17
  let main_c_7 : IVec S_ 1 := constantI S_ 1 1#1
  let main_v19 : IVec S_ 1 := (fun x v => Host.reduce IntOp.andi x v reducesTo_S128_S_d0 h_S_) main_v18 main_c_7
  let main_v20 : IVec S_ 1 := andi main_v14 main_v19
  main_v20

def fn {F : FTy → Type} [FloatOps F] (main_arg0 : FVec F S128x28x28x512 .f32) (main_arg1 : FVec F S128x512 .f32) : IVec S_ 1 :=
  let main_v0 : FVec F S128x28x28x512 .f32 := Host.absf main_arg0
  let main_cst : FVec F S_ .f32 := constant S_ .f32 0x7F800000#32
  let main_v1 : FVec F S128x28x28x512 .f32 := broadcastInDim S128x28x28x512 ![] bcast_S_S128x28x28x512 main_cst
  let main_v2 : IVec S128x28x28x512 1 := cmpf .olt main_v0 main_v1
  let main_c : IVec S_ 1 := constantI S_ 1 1#1
  let main_v3 : IVec S_ 1 := (fun x v => Host.reduce IntOp.andi x v reducesTo_S128x28x28x512_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x28x28x512 .f32 := mulf main_arg0 main_arg0
  let main_cst_2 : FVec F S_ .f32 := constant S_ .f32 0x00000000#32
  let main_v10 : FVec F S128x28x28 .f32 := (fun x v => Host.reduceAdd x v reducesTo_S128x28x28x512_S128x28x28_d3 h_S_) main_v9 main_cst_2
  let main_cst_3 : FVec F S_ .f32 := constant S_ .f32 0x00000000#32
  let main_v11 : FVec F S128x28x28 .f32 := broadcastInDim S128x28x28 ![] bcast_S_S128x28x28 main_cst_3
  let main_v12 : IVec S128x28x28 1 := cmpf .ogt main_v10 main_v11
  let main_c_4 : IVec S_ 1 := constantI S_ 1 1#1
  let main_v13 : IVec S_ 1 := (fun x v => Host.reduce IntOp.andi x v reducesTo_S128x28x28_S_d0_1_2 h_S_) main_v12 main_c_4
  let main_v14 : IVec S_ 1 := andi main_v8 main_v13
  let main_v15 : FVec F S128x512 .f32 := mulf main_arg1 main_arg1
  let main_cst_5 : FVec F S_ .f32 := constant S_ .f32 0x00000000#32
  fn_part1 (F := F) main_v14 main_v15 main_cst_5
-- ==== Kernel.lean ====
abbrev S128x28x28x512 : Shape := ⟨4, ![128, 28, 28, 512]⟩
abbrev S128x512 : Shape := ⟨2, ![128, 512]⟩
abbrev S128x784x512 : Shape := ⟨3, ![128, 784, 512]⟩
abbrev S128x128x784 : Shape := ⟨3, ![128, 128, 784]⟩
abbrev S1x784x512 : Shape := ⟨3, ![1, 784, 512]⟩
abbrev S1x128x784 : Shape := ⟨3, ![1, 128, 784]⟩
abbrev S784x512 : Shape := ⟨2, ![784, 512]⟩
abbrev S128 : Shape := ⟨1, ![128]⟩
abbrev S128x1 : Shape := ⟨2, ![128, 1]⟩
abbrev S784 : Shape := ⟨1, ![784]⟩
abbrev S784x1 : Shape := ⟨2, ![784, 1]⟩
abbrev S128x784 : Shape := ⟨2, ![128, 784]⟩
abbrev S1x128 : Shape := ⟨2, ![1, 128]⟩
abbrev S1x784 : Shape := ⟨2, ![1, 784]⟩

abbrev nBuf : Space → Nat
  | .hbm => 4
  | .vmem => 5
  | .smem => 0
  | _ => 0

abbrev bufTy : (tb : Table) → Fin (tcTables nBuf tb) → BufTy
  | .hbm, ⟨0, _⟩ => ⟨S128x28x28x512, .f32⟩
  | .hbm, ⟨1, _⟩ => ⟨S128x512, .f32⟩
  | .hbm, ⟨2, _⟩ => ⟨S128x784x512, .f32⟩
  | .hbm, ⟨3, _⟩ => ⟨S128x128x784, .f32⟩
  | .local _ .vmem, ⟨0, _⟩ => ⟨S128x512, .f32⟩
  | .local _ .vmem, ⟨1, _⟩ => ⟨S1x784x512, .f32⟩
  | .local _ .vmem, ⟨2, _⟩ => ⟨S1x784x512, .f32⟩
  | .local _ .vmem, ⟨3, _⟩ => ⟨S1x128x784, .f32⟩
  | .local _ .vmem, ⟨4, _⟩ => ⟨S1x128x784, .f32⟩
  | _, _ => ⟨S128x28x28x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x784x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x28x28x512_S128x784x512 : S128x28x28x512.ShapeCasts S128x784x512
  inb_S128x512_S128x512_0_0 : ∀ a, (![0, 0] : Fin 2 → Nat) a + S128x512.size a ≤ S128x512.size a
  h_S128x512 : 0 < S128x512.numel
  inb_S1x784x512_S1x784x512_0_0_0 : ∀ a, (![0, 0, 0] : Fin 3 → Nat) a + S1x784x512.size a ≤ S1x784x512.size a
  h_S1x784x512 : 0 < S1x784x512.numel
  shapeCasts_S1x784x512_S784x512 : S1x784x512.ShapeCasts S784x512
  reduces_S128x512_S128 : S128x512.Reduces [1] S128
  shapeCasts_S128_S128x1 : S128.ShapeCasts S128x1
  broadcasts_S128x1_S128x512 : S128x1.Broadcasts S128x512
  reduces_S784x512_S784 : S784x512.Reduces [1] S784
  shapeCasts_S784_S784x1 : S784.ShapeCasts S784x1
  broadcasts_S784x1_S784x512 : S784x1.Broadcasts S784x512
  bitsLt_bf16_f32 : FTy.bits .bf16 < FTy.bits .f32
  transposes_S1x128_p1_0_S128x1 : S1x128.Transposes [1, 0] S128x1
  broadcasts_S128x1_S128x784 : S128x1.Broadcasts S128x784
  broadcasts_S1x784_S128x784 : S1x784.Broadcasts S128x784
  inb_S1x128x784_S1x128x784_0_0_0 : ∀ a, (![0, 0, 0] : Fin 3 → Nat) a + S1x128x784.size a ≤ S1x128x784.size a
  h_S1x128x784 : 0 < S1x128x784.numel
  shapeCasts_S1x128x784_S128x784 : S1x128x784.ShapeCasts S128x784
  shapeCasts_S128x784_S1x128x784 : S128x784.ShapeCasts S1x128x784
  dot_S128x512_S784x512_S128x784_1_1_0_0_n_n_wf : DotDims.WF S128x512 S784x512 S128x784 [1] [1] [0] [0] [] []
  dot_S1x128_S128x784_S1x784_1_0_0_1_n_n_wf : DotDims.WF S1x128 S128x784 S1x784 [1] [0] [0] [1] [] []
  dot_S1x784_S128x784_S1x128_1_1_0_0_n_n_wf : DotDims.WF S1x784 S128x784 S1x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x784x512.size a ≤ S128x784x512.size a
  hwx0_1 : ∀ i : grid0.Coords, EltTy.bits .f32 = 32 ∨ (Rect.block (s := S128x784x512) S1x784x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x784.size a ≤ S128x128x784.size a
  hwx0_2 : ∀ i : grid0.Coords, EltTy.bits .f32 = 32 ∨ (Rect.block (s := S128x128x784) S1x128x784.size (cc0_transform_2 i) (hinb0_2 i)).WholeWords (EltTy.packing .f32)

variable [Facts₀]

def dot_S128x512_S784x512_S128x784_1_1_0_0_n_n : DotDims S128x512 S784x512 S128x784 where
  lhsContracting := [1]
  rhsContracting := [1]
  lhsNonContracting := [0]
  rhsNonContracting := [0]
  lhsBatch := []
  rhsBatch := []
  wf := dot_S128x512_S784x512_S128x784_1_1_0_0_n_n_wf
def dot_S1x128_S128x784_S1x784_1_0_0_1_n_n : DotDims S1x128 S128x784 S1x784 where
  lhsContracting := [1]
  rhsContracting := [0]
  lhsNonContracting := [0]
  rhsNonContracting := [1]
  lhsBatch := []
  rhsBatch := []
  wf := dot_S1x128_S128x784_S1x784_1_0_0_1_n_n_wf
def dot_S1x784_S128x784_S1x128_1_1_0_0_n_n : DotDims S1x784 S128x784 S1x128 where
  lhsContracting := [1]
  rhsContracting := [1]
  lhsNonContracting := [0]
  rhsNonContracting := [0]
  lhsBatch := []
  rhsBatch := []
  wf := dot_S1x784_S128x784_S1x128_1_1_0_0_n_n_wf

abbrev win0_0 : Pipeline.Window sig grid0 :=
  Pipeline.Window.ofSpec (Memref.whole main_arg1) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x784x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x28x28x512 : Shape := ⟨4, ![128, 28, 28, 512]⟩
abbrev S128x512 : Shape := ⟨2, ![128, 512]⟩
abbrev S_ : Shape := ⟨0, ![]⟩
abbrev S128 : Shape := ⟨1, ![128]⟩
abbrev S128x1 : Shape := ⟨2, ![128, 1]⟩
abbrev S128x28x28 : Shape := ⟨3, ![128, 28, 28]⟩
abbrev S128x28x28x1 : Shape := ⟨4, ![128, 28, 28, 1]⟩
abbrev S128x784x512 : Shape := ⟨3, ![128, 784, 512]⟩
abbrev S128x784x128 : Shape := ⟨3, ![128, 784, 128]⟩
abbrev S128x128x784 : Shape := ⟨3, ![128, 128, 784]⟩
abbrev S1x1x784 : Shape := ⟨3, ![1, 1, 784]⟩
abbrev S1x1x128 : Shape := ⟨3, ![1, 1, 128]⟩
abbrev S128x1x128 : Shape := ⟨3, ![128, 1, 128]⟩
abbrev S128x1x784 : Shape := ⟨3, ![128, 1, 784]⟩
abbrev S128x128x1 : Shape := ⟨3, ![128, 128, 1]⟩

abbrev nBuf : Space → Nat
  | .hbm => 167
  | .vmem => 0
  | .smem => 0
  | _ => 0

abbrev hbmTy0_0 (i : Nat) : BufTy := match i % 128 with
  | 0 => ⟨S128x28x28x512, .f32⟩
  | 1 => ⟨S128x512, .f32⟩
  | 2 => ⟨S128x512, .f32⟩
  | 3 => ⟨S_, .f32⟩
  | 4 => ⟨S128, .f32⟩
  | 5 => ⟨S128x1, .f32⟩
  | 6 => ⟨S128x1, .f32⟩
  | 7 => ⟨S128x512, .f32⟩
  | 8 => ⟨S128x512, .f32⟩
  | 9 => ⟨S128x28x28x512, .f32⟩
  | 10 => ⟨S_, .f32⟩
  | 11 => ⟨S128x28x28, .f32⟩
  | 12 => ⟨S128x28x28x1, .f32⟩
  | 13 => ⟨S128x28x28x1, .f32⟩
  | 14 => ⟨S128x28x28x512, .f32⟩
  | 15 => ⟨S128x28x28x512, .f32⟩
  | 16 => ⟨S128x784x512, .f32⟩
  | 17 => ⟨S128x784x128, .f32⟩
  | 18 => ⟨S128x128x784, .f32⟩
  | 19 => ⟨S_, .f32⟩
  | 20 => ⟨S128x128x784, .f32⟩
  | 21 => ⟨S128x128x784, .f32⟩
  | 22 => ⟨S_, .f32⟩
  | 23 => ⟨S128x128x784, .f32⟩
  | 24 => ⟨S128x128x784, .f32⟩
  | 25 => ⟨S_, .f32⟩
  | 26 => ⟨S128x128x784, .f32⟩
  | 27 => ⟨S128x128x784, .f32⟩
  | 28 => ⟨S128x128x784, .f32⟩
  | 29 => ⟨S_, .f32⟩
  | 30 => ⟨S1x1x784, .f32⟩
  | 31 => ⟨S_, .f32⟩
  | 32 => ⟨S1x1x128, .f32⟩
  | 33 => ⟨S_, .f32⟩
  | 34 => ⟨S128x1x128, .f32⟩
  | 35 => ⟨S128x784x128, .f32⟩
  | 36 => ⟨S128x1x784, .f32⟩
  | 37 => ⟨S_, .f32⟩
  | 38 => ⟨S128x1x784, .f32⟩
  | 39 => ⟨S128x1x784, .f32⟩
  | 40 => ⟨S128x1x784, .f32⟩
  | 41 => ⟨S128x1x784, .f32⟩
  | 42 => ⟨S128x1x128, .f32⟩
  | 43 => ⟨S_, .f32⟩
  | 44 => ⟨S128x1x128, .f32⟩
  | 45 => ⟨S128x1x128, .f32⟩
  | 46 => ⟨S128x1x128, .f32⟩
  | 47 => ⟨S128x1x128, .f32⟩
  | 48 => ⟨S128x1x784, .f32⟩
  | 49 => ⟨S_, .f32⟩
  | 50 => ⟨S128x1x784, .f32⟩
  | 51 => ⟨S128x1x784, .f32⟩
  | 52 => ⟨S128x1x784, .f32⟩
  | 53 => ⟨S128x1x784, .f32⟩
  | 54 => ⟨S128x1x128, .f32⟩
  | 55 => ⟨S_, .f32⟩
  | 56 => ⟨S128x1x128, .f32⟩
  | 57 => ⟨S128x1x128, .f32⟩
  | 58 => ⟨S128x1x128, .f32⟩
  | 59 => ⟨S128x1x128, .f32⟩
  | 60 => ⟨S128x1x784, .f32⟩
  | 61 => ⟨S_, .f32⟩
  | 62 => ⟨S128x1x784, .f32⟩
  | 63 => ⟨S128x1x784, .f32⟩
  | 64 => ⟨S128x1x784, .f32⟩
  | 65 => ⟨S128x1x784, .f32⟩
  | 66 => ⟨S128x1x128, .f32⟩
  | 67 => ⟨S_, .f32⟩
  | 68 => ⟨S128x1x128, .f32⟩
  | 69 => ⟨S128x1x128, .f32⟩
  | 70 => ⟨S128x1x128, .f32⟩
  | 71 => ⟨S128x1x128, .f32⟩
  | 72 => ⟨S128x1x784, .f32⟩
  | 73 => ⟨S_, .f32⟩
  | 74 => ⟨S128x1x784, .f32⟩
  | 75 => ⟨S128x1x784, .f32⟩
  | 76 => ⟨S128x1x784, .f32⟩
  | 77 => ⟨S128x1x784, .f32⟩
  | 78 => ⟨S128x1x128, .f32⟩
  | 79 => ⟨S_, .f32⟩
  | 80 => ⟨S128x1x128, .f32⟩
  | 81 => ⟨S128x1x128, .f32⟩
  | 82 => ⟨S128x1x128, .f32⟩
  | 83 => ⟨S128x1x128, .f32⟩
  | 84 => ⟨S128x1x784, .f32⟩
  | 85 => ⟨S_, .f32⟩
  | 86 => ⟨S128x1x784, .f32⟩
  | 87 => ⟨S128x1x784, .f32⟩
  | 88 => ⟨S128x1x784, .f32⟩
  | 89 => ⟨S128x1x784, .f32⟩
  | 90 => ⟨S128x1x128, .f32⟩
  | 91 => ⟨S_, .f32⟩
  | 92 => ⟨S128x1x128, .f32⟩
  | 93 => ⟨S128x1x128, .f32⟩
  | 94 => ⟨S128x1x128, .f32⟩
  | 95 => ⟨S128x1x128, .f32⟩
  | 96 => ⟨S128x1x784, .f32⟩
  | 97 => ⟨S_, .f32⟩
  | 98 => ⟨S128x1x784, .f32⟩
  | 99 => ⟨S128x1x784, .f32⟩
  | 100 => ⟨S128x1x784, .f32⟩
  | 101 => ⟨S128x1x784, .f32⟩
  | 102 => ⟨S128x1x128, .f32⟩
  | 103 => ⟨S_, .f32⟩
  | 104 => ⟨S128x1x128, .f32⟩
  | 105 => ⟨S128x1x128, .f32⟩
  | 106 => ⟨S128x1x128, .f32⟩
  | 107 => ⟨S128x1x128, .f32⟩
  | 108 => ⟨S128x1x784, .f32⟩
  | 109 => ⟨S_, .f32⟩
  | 110 => ⟨S128x1x784, .f32⟩
  | 111 => ⟨S128x1x784, .f32⟩
  | 112 => ⟨S128x1x784, .f32⟩
  | 113 => ⟨S128x1x784, .f32⟩
  | 114 => ⟨S128x1x128, .f32⟩
  | 115 => ⟨S_, .f32⟩
  | 116 => ⟨S128x1x128, .f32⟩
  | 117 => ⟨S128x1x128, .f32⟩
  | 118 => ⟨S128x1x128, .f32⟩
  | 119 => ⟨S128x1x128, .f32⟩
  | 120 => ⟨S128x1x784, .f32⟩
  | 121 => ⟨S_, .f32⟩
  | 122 => ⟨S128x1x784, .f32⟩
  | 123 => ⟨S128x1x784, .f32⟩
  | 124 => ⟨S128x1x784, .f32⟩
  | 125 => ⟨S128x1x784, .f32⟩
  | 126 => ⟨S128x1x128, .f32⟩
  | 127 => ⟨S_, .f32⟩
  | _ => ⟨S128x28x28x512, .f32⟩

abbrev hbmTy0_1 (i : Nat) : BufTy := match i % 128 with
  | 0 => ⟨S128x1x128, .f32⟩
  | 1 => ⟨S128x1x128, .f32⟩
  | 2 => ⟨S128x1x128, .f32⟩
  | 3 => ⟨S128x1x128, .f32⟩
  | 4 => ⟨S128x1x784, .f32⟩
  | 5 => ⟨S_, .f32⟩
  | 6 => ⟨S128x1x784, .f32⟩
  | 7 => ⟨S128x1x784, .f32⟩
  | 8 => ⟨S128x1x784, .f32⟩
  | 9 => ⟨S128x1x784, .f32⟩
  | 10 => ⟨S128x1x128, .f32⟩
  | 11 => ⟨S_, .f32⟩
  | 12 => ⟨S128x1x128, .f32⟩
  | 13 => ⟨S128x1x128, .f32⟩
  | 14 => ⟨S128x1x128, .f32⟩
  | 15 => ⟨S128x1x128, .f32⟩
  | 16 => ⟨S128x1x784, .f32⟩
  | 17 => ⟨S_, .f32⟩
  | 18 => ⟨S128x1x784, .f32⟩
  | 19 => ⟨S128x1x784, .f32⟩
  | 20 => ⟨S128x1x784, .f32⟩
  | 21 => ⟨S128x1x784, .f32⟩
  | 22 => ⟨S128x1x128, .f32⟩
  | 23 => ⟨S_, .f32⟩
  | 24 => ⟨S128x1x128, .f32⟩
  | 25 => ⟨S128x1x128, .f32⟩
  | 26 => ⟨S128x1x128, .f32⟩
  | 27 => ⟨S128x1x128, .f32⟩
  | 28 => ⟨S128x1x784, .f32⟩
  | 29 => ⟨S_, .f32⟩
  | 30 => ⟨S128x1x784, .f32⟩
  | 31 => ⟨S128x1x784, .f32⟩
  | 32 => ⟨S128x1x784, .f32⟩
  | 33 => ⟨S128x1x784, .f32⟩
  | 34 => ⟨S128x128x1, .f32⟩
  | 35 => ⟨S128x128x784, .f32⟩
  | 36 => ⟨S128x128x784, .f32⟩
  | 37 => ⟨S128x128x784, .f32⟩
  | 38 => ⟨S128x128x784, .f32⟩
  | _ => ⟨S128x28x28x512, .f32⟩

abbrev hbmTy (i : Nat) : BufTy := match i / 128 with
  | 0 => hbmTy0_0 i
  | 1 => hbmTy0_1 i
  | _ => ⟨S128x28x28x512, .f32⟩

abbrev bufTy : (tb : Table) → Fin (tcTables nBuf tb) → BufTy
  | .hbm, ⟨i, _⟩ => hbmTy i
  | _, _ => ⟨S128x28x28x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_16 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_17 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_18 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_19 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_20 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_22 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_23 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_24 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_25 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_26 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_27 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩

abbrev nD : Nat := 1
abbrev τ : Topo := Topo.v7x

variable {F : FTy → Type} [FloatOps F]

class Facts₀ : Prop where
  reducesTo_S128x512_S128_d1 : S128x512.ReducesTo [1] S128
  h_S_ : 0 < S_.numel
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x28x28x512_S128x28x28_d3 : S128x28x28x512.ReducesTo [3] S128x28x28
  bcast_S128x28x28_S128x28x28x1_0_1_2 : S128x28x28.BroadcastsInDim S128x28x28x1 (![0, 1, 2] : Fin 3 → Fin S128x28x28x1.rank)
  bcast_S128x28x28x1_S128x28x28x512_0_1_2_3 : S128x28x28x1.BroadcastsInDim S128x28x28x512 (![0, 1, 2, 3] : Fin 4 → Fin S128x28x28x512.rank)
  shapeCasts_S128x28x28x512_S128x784x512 : S128x28x28x512.ShapeCasts S128x784x512
  transposes_S128x784x128_S128x128x784_0_2_1 : S128x784x128.Transposes [0, 2, 1] S128x128x784
  bcast_S_S128x128x784 : S_.BroadcastsInDim S128x128x784 (![] : Fin 0 → Fin S128x128x784.rank)
  bcast_S_S1x1x784 : S_.BroadcastsInDim S1x1x784 (![] : Fin 0 → Fin S1x1x784.rank)
  bcast_S_S1x1x128 : S_.BroadcastsInDim S1x1x128 (![] : Fin 0 → Fin S1x1x128.rank)
  bcast_S_S128x1x128 : S_.BroadcastsInDim S128x1x128 (![] : Fin 0 → Fin S128x1x128.rank)
  transposes_S128x128x784_S128x784x128_0_2_1 : S128x128x784.Transposes [0, 2, 1] S128x784x128
  bcast_S_S128x1x784 : S_.BroadcastsInDim S128x1x784 (![] : Fin 0 → Fin S128x1x784.rank)
  bcast_S1x1x784_S128x1x784_0_1_2 : S1x1x784.BroadcastsInDim S128x1x784 (![0, 1, 2] : Fin 3 → Fin S128x1x784.rank)
  bcast_S1x1x128_S128x1x128_0_1_2 : S1x1x128.BroadcastsInDim S128x1x128 (![0, 1, 2] : Fin 3 → Fin S128x1x128.rank)
  transposes_S128x1x128_S128x128x1_0_2_1 : S128x1x128.Transposes [0, 2, 1] S128x128x1
  bcast_S128x128x1_S128x128x784_0_1_2 : S128x128x1.BroadcastsInDim S128x128x784 (![0, 1, 2] : Fin 3 → Fin S128x128x784.rank)
  bcast_S128x1x784_S128x128x784_0_1_2 : S128x1x784.BroadcastsInDim S128x128x784 (![0, 1, 2] : Fin 3 → Fin S128x128x784.rank)
  dot_S128x784x512_S128x512_S128x784x128_2_1_01_0_n_n_wf : DotDims.WF S128x784x512 S128x512 S128x784x128 [2] [1] [0, 1] [0] [] []
  dot_S128x1x128_S128x128x784_S128x1x784_2_1_1_2_0_0_wf : DotDims.WF S128x1x128 S128x128x784 S128x1x784 [2] [1] [1] [2] [0] [0]
  dot_S128x1x784_S128x784x128_S128x1x128_2_1_1_2_0_0_wf : DotDims.WF S128x1x784 S128x784x128 S128x1x128 [2] [1] [1] [2] [0] [0]

variable [Facts₀]

def dot_S128x784x512_S128x512_S128x784x128_2_1_01_0_n_n : DotDims S128x784x512 S128x512 S128x784x128 where
  lhsContracting := [2]
  rhsContracting := [1]
  lhsNonContracting := [0, 1]
  rhsNonContracting := [0]
  lhsBatch := []
  rhsBatch := []
  wf := dot_S128x784x512_S128x512_S128x784x128_2_1_01_0_n_n_wf
def dot_S128x1x128_S128x128x784_S128x1x784_2_1_1_2_0_0 : DotDims S128x1x128 S128x128x784 S128x1x784 where
  lhsContracting := [2]
  rhsContracting := [1]
  lhsNonContracting := [1]
  rhsNonContracting := [2]
  lhsBatch := [0]
  rhsBatch := [0]
  wf := dot_S128x1x128_S128x128x784_S128x1x784_2_1_1_2_0_0_wf
def dot_S128x1x784_S128x784x128_S128x1x128_2_1_1_2_0_0 : DotDims S128x1x784 S128x784x128 S128x1x128 where
  lhsContracting := [2]
  rhsContracting := [1]
  lhsNonContracting := [1]
  rhsNonContracting := [2]
  lhsBatch := [0]
  rhsBatch := [0]
  wf := dot_S128x1x784_S128x784x128_S128x1x128_2_1_1_2_0_0_wf

class Facts : Prop extends Facts₀ where

variable [Facts]
-- ==== Proof.Spec.lean ====
/-
  The transport plan both programs compute, as one function of the two argument arrays.

  For a batch element, the rows of the support table (128 rows) and of the feature map (784 rows) are scaled to unit
  Euclidean length; the Gibbs matrix is `K s n = exp (-10 · (2 - 2 · ⟨t_s, x_n⟩))`; ten rounds of the scaling
  iteration `v = q / (uᵀK + ε)`, `u = p / (K v + ε)` start from `u = 1`; the plan is `u_s · K s n · v_n` with one more
  column scaling `v`. Everything is over the extended reals with the quotient's conventions of `Ideal.div`.
-/
import Idealize.ShloMosaic.PureOps.Ideal
import Idealize.ShloMosaic.Lib.ValueIdx

noncomputable section

namespace Cert.Transport

open Idealize.ShloMosaic Idealize.ShloMosaic.ValueIdx

/-- The column scaling `v n = q / (∑ s, u s · K s n + ε)`, `q` the f32 nearest `1/784`, `ε = 2⁻⁵²`. -/
def colScale (K : Fin 128 → Fin 784 → EReal) (u : Fin 128 → EReal) (n : Fin 784) : EReal :=
  Ideal.div (Ideal.ofBits .f32 0x3AA72F05#32) ((∑ s : Fin 128, u s * K s n) + Ideal.ofBits .f32 0x25800000#32)

/-- The row scaling `u s = p / (∑ n, v n · K s n + ε)`, `p = 1/128`. -/
def rowScale (K : Fin 128 → Fin 784 → EReal) (v : Fin 784 → EReal) (s : Fin 128) : EReal :=
  Ideal.div (Ideal.ofBits .f32 0x3C000000#32) ((∑ n : Fin 784, v n * K s n) + Ideal.ofBits .f32 0x25800000#32)

/-- The row scaling after `k` rounds, from `u = 1`. -/
def rowIter (K : Fin 128 → Fin 784 → EReal) : ℕ → Fin 128 → EReal
  | 0 => fun _ => Ideal.ofBits .f32 0x3F800000#32
  | k + 1 => rowScale K (colScale K (rowIter K k))

/-- The plan after ten rounds: `u_s · K s n · v_n`. -/
def plan (K : Fin 128 → Fin 784 → EReal) (s : Fin 128) (n : Fin 784) : EReal :=
  rowIter K 10 s * K s n * colScale K (rowIter K 10) n

/-- A row scaled by the reciprocal square root of its sum of squares. -/
def unitRow {ι : Type} (x : ι → Fin 512 → EReal) (i : ι) (d : Fin 512) : EReal :=
  x i d * Ideal.rsqrt (∑ e : Fin 512, x i e * x i e)

/-- The Gibbs matrix of two families of rows: `exp (-10 · (2 - 2 · ⟨T_s, X_n⟩))`. -/
def gibbs (T : Fin 128 → Fin 512 → EReal) (X : Fin 784 → Fin 512 → EReal) (s : Fin 128) (n : Fin 784) : EReal :=
  Ideal.exp (Ideal.ofBits .f32 0xC1200000#32 *
    (Ideal.ofBits .f32 0x40000000#32 - Ideal.ofBits .f32 0x40000000#32 * ∑ d : Fin 512, T s d * X n d))

/-- Pixel `n` of the 28 × 28 map of batch element `b`, channel `d`: the index of the four-axis feature array. -/
abbrev pix (b : Fin 128) (n : Fin 784) (d : Fin 512) : (⟨4, ![128, 28, 28, 512]⟩ : Shape).Idx :=
  ix4 b (⟨n.val / 28, by have := n.isLt; omega⟩ : Fin 28) (⟨n.val % 28, by omega⟩ : Fin 28) d

/-- The result array as one function of the feature array `A0` and the support table `A1`. -/
def G (A0 : (⟨4, ![128, 28, 28, 512]⟩ : Shape).Idx → EReal) (A1 : (⟨2, ![128, 512]⟩ : Shape).Idx → EReal) :
    (⟨3, ![128, 128, 784]⟩ : Shape).Idx → EReal :=
  fun i => plan (gibbs (unitRow fun s d => A1 (ix2 s d)) (unitRow fun n d => A0 (pix (i 0) n d))) (i 1) (i 2)

/-- With a positive sum of squares, scaling by the reciprocal square root is the quotient by the square root: at a
    positive real both are the product with `(√r)⁻¹`, and at `+∞` both are `0`. -/
theorem mul_rsqrt_eq_div_sqrt (x r : EReal) (hr : 0 < r) : x * Ideal.rsqrt r = Ideal.div x (Ideal.sqrt r) := by
  induction r using EReal.rec with
  | bot => exact absurd hr (by simp)
  | top =>
    show x * (0 : EReal) = Ideal.div x ⊤
    rw [Ideal.div, if_neg (by simp), EReal.inv_top]
  | coe r =>
    have hr' : 0 < r := by exact_mod_cast hr
    have hs : Real.sqrt r ≠ 0 := (Real.sqrt_pos.2 hr').ne'
    show x * (if r < 0 then ⊥ else if r = 0 then ⊤ else (((Real.sqrt r)⁻¹ : ℝ) : EReal))
      = Ideal.div x (if r < 0 then ⊥ else (Real.sqrt r : EReal))
    rw [if_neg (not_lt.2 hr'.le), if_neg hr'.ne', if_neg (not_lt.2 hr'.le), Ideal.div,
      if_neg (by exact_mod_cast hs), EReal.coe_inv]

end Cert.Transport

end
-- ==== Proof.KerPlan.lean ====
import proofs.«182227_j41592463294658_1_alg».proof.Proof.Gen.KernelIdeal.Frame
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Transport Idealize.ShloMosaic Idealize.ShloMosaic.ValueIdx

/-- A function of the 128 rows as a one-row vector of shape [1, 128]. -/
def rowVec (u : Fin 128 → EReal) : FVec Ideal S1x128 .f32 := fun j => u (j 1)

/-- A function of the 784 columns as a one-row vector of shape [1, 784]. -/
def colVec (v : Fin 784 → EReal) : FVec Ideal S1x784 .f32 := fun j => v (j 1)

/-- A 128 × 784 vector as a function of its two coordinates. -/
def matOf (K : FVec Ideal S128x784 .f32) : Fin 128 → Fin 784 → EReal := fun s n => K (ix2 s n)

/-! ### The two contractions' operand indices, axis by axis -/

theorem lhsA_0 (i : S1x784.Idx) (q : dot_S1x128_S128x784_S1x784_1_0_0_1_n_n.contr.Idx) :
    (dot_S1x128_S128x784_S1x784_1_0_0_1_n_n.lhsIdx i q 0).val = (i 0).val := by
  unfold DotDims.lhsIdx
  rw [dif_neg (show ¬(0 : Fin S1x128.rank) ∈ dot_S1x128_S128x784_S1x784_1_0_0_1_n_n.lhsBatch by decide), dif_pos (show (0 : Fin S1x128.rank) ∈ dot_S1x128_S128x784_S1x784_1_0_0_1_n_n.lhsNonContracting by decide)]
  rfl
theorem lhsA_1 (i : S1x784.Idx) (q : dot_S1x128_S128x784_S1x784_1_0_0_1_n_n.contr.Idx) :
    (dot_S1x128_S128x784_S1x784_1_0_0_1_n_n.lhsIdx i q 1).val = (q ⟨0, by decide⟩).val :=
  dot_S1x128_S128x784_S1x784_1_0_0_1_n_n.lhsIdx_val_of_single rfl i q
theorem rhsA_0 (i : S1x784.Idx) (q : dot_S1x128_S128x784_S1x784_1_0_0_1_n_n.contr.Idx) :
    (dot_S1x128_S128x784_S1x784_1_0_0_1_n_n.rhsIdx i q 0).val = (q ⟨0, by decide⟩).val :=
  dot_S1x128_S128x784_S1x784_1_0_0_1_n_n.rhsIdx_val_of_single rfl i q
theorem rhsA_1 (i : S1x784.Idx) (q : dot_S1x128_S128x784_S1x784_1_0_0_1_n_n.contr.Idx) :
    (dot_S1x128_S128x784_S1x784_1_0_0_1_n_n.rhsIdx i q 1).val = (i 1).val := by
  unfold DotDims.rhsIdx
  rw [dif_neg (show ¬(1 : Fin S128x784.rank) ∈ dot_S1x128_S128x784_S1x784_1_0_0_1_n_n.rhsBatch by decide), dif_pos (show (1 : Fin S128x784.rank) ∈ dot_S1x128_S128x784_S1x784_1_0_0_1_n_n.rhsNonContracting by decide)]
  rfl

theorem lhsB_0 (i : S1x128.Idx) (q : dot_S1x784_S128x784_S1x128_1_1_0_0_n_n.contr.Idx) :
    (dot_S1x784_S128x784_S1x128_1_1_0_0_n_n.lhsIdx i q 0).val = (i 0).val := by
  unfold DotDims.lhsIdx
  rw [dif_neg (show ¬(0 : Fin S1x784.rank) ∈ dot_S1x784_S128x784_S1x128_1_1_0_0_n_n.lhsBatch by decide), dif_pos (show (0 : Fin S1x784.rank) ∈ dot_S1x784_S128x784_S1x128_1_1_0_0_n_n.lhsNonContracting by decide)]
  rfl
theorem lhsB_1 (i : S1x128.Idx) (q : dot_S1x784_S128x784_S1x128_1_1_0_0_n_n.contr.Idx) :
    (dot_S1x784_S128x784_S1x128_1_1_0_0_n_n.lhsIdx i q 1).val = (q ⟨0, by decide⟩).val :=
  dot_S1x784_S128x784_S1x128_1_1_0_0_n_n.lhsIdx_val_of_single rfl i q
theorem rhsB_0 (i : S1x128.Idx) (q : dot_S1x784_S128x784_S1x128_1_1_0_0_n_n.contr.Idx) :
    (dot_S1x784_S128x784_S1x128_1_1_0_0_n_n.rhsIdx i q 0).val = (i 1).val := by
  unfold DotDims.rhsIdx
  rw [dif_neg (show ¬(0 : Fin S128x784.rank) ∈ dot_S1x784_S128x784_S1x128_1_1_0_0_n_n.rhsBatch by decide), dif_pos (show (0 : Fin S128x784.rank) ∈ dot_S1x784_S128x784_S1x128_1_1_0_0_n_n.rhsNonContracting by decide)]
  rfl
theorem rhsB_1 (i : S1x128.Idx) (q : dot_S1x784_S128x784_S1x128_1_1_0_0_n_n.contr.Idx) :
    (dot_S1x784_S128x784_S1x128_1_1_0_0_n_n.rhsIdx i q 1).val = (q ⟨0, by decide⟩).val :=
  dot_S1x784_S128x784_S1x128_1_1_0_0_n_n.rhsIdx_val_of_single rfl i q

/-- A one-row vector times the matrix, contracted over the 128 rows: the row of the column sums. -/
theorem mulRow_eq (u : Fin 128 → EReal) (K : FVec Ideal S128x784 .f32) :
    matmul dot_S1x128_S128x784_S1x784_1_0_0_1_n_n (some .fp32) (rowVec u) K (constant (F := Ideal) S1x784 .f32 0x00000000#32)
      = colVec fun n => ∑ s : Fin 128, u s * matOf K s n := by
  funext j
  simp only [matmul]
  rw [Ideal.matmul_constant_zero_apply, ← Equiv.sum_comp (ValueIdx.contrEquiv1 dot_S1x128_S128x784_S1x784_1_0_0_1_n_n 128 rfl rfl).symm]
  refine Finset.sum_congr rfl fun k _ => ?_
  have hk := ValueIdx.contrEquiv1_symm_val dot_S1x128_S128x784_S1x784_1_0_0_1_n_n 128 rfl rfl k
  have el : dot_S1x128_S128x784_S1x784_1_0_0_1_n_n.lhsIdx j ((ValueIdx.contrEquiv1 dot_S1x128_S128x784_S1x784_1_0_0_1_n_n 128 rfl rfl).symm k) = ix2 (j 0) k := funext fun a => Fin.ext (by
    match a with
    | ⟨0, _⟩ => exact lhsA_0 _ _
    | ⟨1, _⟩ => exact (lhsA_1 _ _).trans hk)
  have er : dot_S1x128_S128x784_S1x784_1_0_0_1_n_n.rhsIdx j ((ValueIdx.contrEquiv1 dot_S1x128_S128x784_S1x784_1_0_0_1_n_n 128 rfl rfl).symm k) = ix2 k (j 1) := funext fun a => Fin.ext (by
    match a with
    | ⟨0, _⟩ => exact (rhsA_0 _ _).trans hk
    | ⟨1, _⟩ => exact rhsA_1 _ _)
  rw [el, er]
  rfl

/-- A one-row vector times the matrix, contracted over the 784 columns: the row of the row sums. -/
theorem mulCol_eq (v : Fin 784 → EReal) (K : FVec Ideal S128x784 .f32) :
    matmul dot_S1x784_S128x784_S1x128_1_1_0_0_n_n (some .fp32) (colVec v) K (constant (F := Ideal) S1x128 .f32 0x00000000#32)
      = rowVec fun s => ∑ n : Fin 784, v n * matOf K s n := by
  funext j
  simp only [matmul]
  rw [Ideal.matmul_constant_zero_apply, ← Equiv.sum_comp (ValueIdx.contrEquiv1 dot_S1x784_S128x784_S1x128_1_1_0_0_n_n 784 rfl rfl).symm]
  refine Finset.sum_congr rfl fun k _ => ?_
  have hk := ValueIdx.contrEquiv1_symm_val dot_S1x784_S128x784_S1x128_1_1_0_0_n_n 784 rfl rfl k
  have el : dot_S1x784_S128x784_S1x128_1_1_0_0_n_n.lhsIdx j ((ValueIdx.contrEquiv1 dot_S1x784_S128x784_S1x128_1_1_0_0_n_n 784 rfl rfl).symm k) = ix2 (j 0) k := funext fun a => Fin.ext (by
    match a with
    | ⟨0, _⟩ => exact lhsB_0 _ _
    | ⟨1, _⟩ => exact (lhsB_1 _ _).trans hk)
  have er : dot_S1x784_S128x784_S1x128_1_1_0_0_n_n.rhsIdx j ((ValueIdx.contrEquiv1 dot_S1x784_S128x784_S1x128_1_1_0_0_n_n 784 rfl rfl).symm k) = ix2 (j 1) k := funext fun a => Fin.ext (by
    match a with
    | ⟨0, _⟩ => exact rhsB_0 _ _
    | ⟨1, _⟩ => exact (rhsB_1 _ _).trans hk)
  rw [el, er]
  rfl

/-! ### The scaling steps on vectors -/

/-- The column step on a row of column sums: `q / (W + ε)`. -/
def colStep (W : FVec Ideal S1x784 .f32) : FVec Ideal S1x784 .f32 :=
  divf (broadcast S1x784 (Scalar.ofBits .f32 0x3AA72F05#32 : Ideal .f32))
    (addf W (broadcast S1x784 (Scalar.ofBits .f32 0x25800000#32 : Ideal .f32)))

/-- The row step on a row of row sums: `p / (W + ε)`. -/
def rowStep (W : FVec Ideal S1x128 .f32) : FVec Ideal S1x128 .f32 :=
  divf (broadcast S1x128 (Scalar.ofBits .f32 0x3C000000#32 : Ideal .f32))
    (addf W (broadcast S1x128 (Scalar.ofBits .f32 0x25800000#32 : Ideal .f32)))

/-- The row vector times the matrix, over the rows. -/
def mulRow (K : FVec Ideal S128x784 .f32) (U : FVec Ideal S1x128 .f32) : FVec Ideal S1x784 .f32 :=
  matmul dot_S1x128_S128x784_S1x784_1_0_0_1_n_n (some .fp32) U K (constant (F := Ideal) S1x784 .f32 0x00000000#32)

/-- The row vector times the matrix, over the columns. -/
def mulCol (K : FVec Ideal S128x784 .f32) (V : FVec Ideal S1x784 .f32) : FVec Ideal S1x128 .f32 :=
  matmul dot_S1x784_S128x784_S1x128_1_1_0_0_n_n (some .fp32) V K (constant (F := Ideal) S1x128 .f32 0x00000000#32)

/-- One column scaling, on vectors, is the specification's. -/
theorem colStep_mulRow (K : FVec Ideal S128x784 .f32) (u : Fin 128 → EReal) :
    colStep (mulRow K (rowVec u)) = colVec (colScale (matOf K) u) := by
  unfold mulRow
  rw [mulRow_eq]
  rfl

/-- One row scaling, on vectors, is the specification's. -/
theorem rowStep_mulCol (K : FVec Ideal S128x784 .f32) (v : Fin 784 → EReal) :
    rowStep (mulCol K (colVec v)) = rowVec (rowScale (matOf K) v) := by
  unfold mulCol
  rw [mulCol_eq]
  rfl

/-! ### The payloads as chains of steps -/

theorem pay3_chain (x0 : Vec Ideal S128x512 .f32) (x1 : Vec Ideal S1x784x512 .f32) :
    k0_pay3 (F := Ideal) x0 x1 = mulRow (k0_pay2 x0 x1) (rowStep (mulCol (k0_pay2 x0 x1) (colStep (mulRow (k0_pay2 x0 x1)
      (broadcast S1x128 (Scalar.ofBits .f32 0x3F800000#32 : Ideal .f32)))))) := rfl

theorem pay4_chain (K : FVec Ideal S128x784 .f32) (W : FVec Ideal S1x784 .f32) :
    k0_pay4 (F := Ideal) K W (Scalar.ofBits .f32 0x25800000#32) =
      mulCol K (colStep (mulRow K (rowStep (mulCol K (colStep (mulRow K (rowStep (mulCol K (colStep (mulRow K (rowStep (mulCol K
        (colStep W))))))))))))) := rfl

theorem pay6_chain (K : FVec Ideal S128x784 .f32) (W : FVec Ideal S1x128 .f32) :
    k0_pay6 (F := Ideal) K W (k0_pay5 (F := Ideal)) =
      mulRow K (rowStep (mulCol K (colStep (mulRow K (rowStep (mulCol K (colStep (mulRow K (rowStep (mulCol K (colStep (mulRow K
        (rowStep W))))))))))))) := rfl

theorem pay1_chain (K : FVec Ideal S128x784 .f32) (W : FVec Ideal S1x784 .f32) :
    k0_pay1 (F := Ideal) K W (k0_pay7 (F := Ideal)) =
      shapeCast S1x128x784 (mulf (mulf (broadcastTo S128x784 (transpose S128x1 [1, 0]
          (rowStep (mulCol K (colStep (mulRow K (rowStep (mulCol K (colStep W)))))))
          transposes_S1x128_p1_0_S128x1) broadcasts_S128x1_S128x784) K)
        (broadcastTo S128x784 (colStep (mulRow K (rowStep (mulCol K (colStep (mulRow K (rowStep (mulCol K (colStep W)))))))))
          broadcasts_S1x784_S128x784)) shapeCasts_S128x784_S1x128x784 := rfl

/-! ### The last reads -/

/-- A [128, 1] column broadcast along the 784 columns reads, at `(s, n)`, the column's entry `s`. -/
theorem bcastCol_apply (x : FVec Ideal S128x1 .f32) (s : Fin 128) (n : Fin 784) :
    broadcastTo S128x784 x broadcasts_S128x1_S128x784 (ix2 s n) = x (ix2 s (0 : Fin 1)) := by
  refine broadcastTo_apply x broadcasts_S128x1_S128x784 (ix2 s n) (ix2 s (0 : Fin 1)) fun ax => ?_
  match ax with
  | ⟨0, _⟩ => rfl
  | ⟨1, _⟩ => rfl

/-- The body's chain of payloads over any matrix `K`: ten rounds from `u = 1`, then the plan. -/
theorem body_plan (K : FVec Ideal S128x784 .f32) (s : Fin 128) (n : Fin 784) :
    k0_pay1 (F := Ideal) K (k0_pay6 (F := Ideal) K (k0_pay4 (F := Ideal) K
        (mulRow K (rowStep (mulCol K (colStep (mulRow K (broadcast S1x128 (Scalar.ofBits .f32 0x3F800000#32 : Ideal .f32)))))))
        (Scalar.ofBits .f32 0x25800000#32)) (k0_pay5 (F := Ideal))) (k0_pay7 (F := Ideal)) (ix3 (0 : Fin 1) s n)
      = plan (matOf K) s n := by
  rw [pay1_chain, pay6_chain, pay4_chain]
  rw [show (broadcast S1x128 (Scalar.ofBits .f32 0x3F800000#32 : Ideal .f32) : FVec Ideal S1x128 .f32)
    = rowVec (rowIter (matOf K) 0) from rfl]
  simp only [colStep_mulRow, rowStep_mulCol]
  rw [shapeCast_ab_1ab_apply]
  show broadcastTo S128x784 (transpose S128x1 [1, 0] (rowVec _) _) _ (ix2 s n) * K (ix2 s n)
    * broadcastTo S128x784 (colVec _) _ (ix2 s n) = _
  rw [bcastCol_apply, transpose_ix2_apply, broadcastTo_1b_ab_apply]
  rfl

/-- The block the body leaves in the output window's buffer, at row `s` and column `n`, is the transport plan of the
    Gibbs matrix the body computed from its two input blocks. -/
theorem out_eq_plan (x0 : Vec Ideal S128x512 .f32) (x1 : Vec Ideal S1x784x512 .f32) (s : Fin 128) (n : Fin 784) :
    out0_2 x0 x1 (ix3 (0 : Fin 1) s n) = plan (fun s' n' => k0_pay2 (F := Ideal) x0 x1 (ix2 s' n')) s n := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_2
  rw [View.canon_unit_zero hz3]
  simp only [View.ld_unit_zero (S := S128x512) hz2, View.ld_unit_zero (S := S1x784x512) hz3]
  rw [pay3_chain]
  exact body_plan (k0_pay2 x0 x1) s n

end Cert.KernelIdeal.Body

end
-- ==== Proof.KerGibbs.lean ====
import proofs.«182227_j41592463294658_1_alg».proof.Proof.Gen.KernelIdeal.Skeleton
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Transport Idealize.ShloMosaic Idealize.ShloMosaic.ValueIdx

/-- The sum of one row of a 512-column array: the lane reduction read at the row. -/
theorem lane_sum {n : Nat} (y : FVec Ideal ⟨2, ![n, 512]⟩ .f32) (h : Shape.Reduces ⟨2, ![n, 512]⟩ [1] ⟨1, ![n]⟩)
    (hφ : FKind.Formats .f32) (hacc : (0x00000000#32 : BitVec 32) = FKind.add.neutral .f32 hφ) (p : Fin n) :
    multiReduction .add [1] ⟨1, ![n]⟩ y 0x00000000#32 h hφ hacc (ix1 p) = ∑ e : Fin 512, y (ix2 p e) :=
  (Ideal.multiReduction_add_single y _ h hφ hacc (ix1 p)).trans
    (Finset.sum_congr rfl fun k _ => congrArg y (funext fun a => Fin.ext (by
      match a with
      | ⟨0, _⟩ => rfl
      | ⟨1, _⟩ => rfl)))

/-- A vector written as a column, `[n] → [n, 1]`, reads at row `p` the vector's entry `p`. -/
theorem col_cast {α : Type} {n : Nat} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column broadcast over 512 channels, `[n, 1] → [n, 512]`, reads at `(p, d)` the column's entry of row `p`. -/
theorem col_bcast {α : Type} {n : Nat} (v : (⟨2, ![n, 1]⟩ : Shape).Idx → α) (h : (⟨2, ![n, 1]⟩ : Shape).Broadcasts ⟨2, ![n, 512]⟩)
    (p : Fin n) (d : Fin 512) : broadcastTo ⟨2, ![n, 512]⟩ v h (ix2 p d) = v (ix2 p (0 : Fin 1)) := by
  refine broadcastTo_apply v h (ix2 p d) (ix2 p (0 : Fin 1)) fun ax => ?_
  match ax with
  | ⟨0, _⟩ =>
    show p.val = if n = 1 then 0 else p.val
    split
    · have := p.isLt; omega
    · rfl
  | ⟨1, _⟩ => rfl

/-- The rows of a 512-column array scaled by the reciprocal square root of their sums of squares, as the body
    computes them: square, sum the channels, write the sums as a column, take `rsqrt`, broadcast back, multiply. -/
def unitVec {n : Nat} (x : FVec Ideal ⟨2, ![n, 512]⟩ .f32) (hr : Shape.Reduces ⟨2, ![n, 512]⟩ [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 512]⟩) :
    FVec Ideal ⟨2, ![n, 512]⟩ .f32 :=
  mulf x (broadcastTo ⟨2, ![n, 512]⟩ (rsqrt (shapeCast ⟨2, ![n, 1]⟩
    (multiReduction .add [1] ⟨1, ![n]⟩ (mulf x x) 0x00000000#32 hr hφ hacc) hc)) hb)

/-- Read at `(p, d)` it is the specification's unit row. -/
theorem unitVec_apply {n : Nat} (x : FVec Ideal ⟨2, ![n, 512]⟩ .f32) (hr : Shape.Reduces ⟨2, ![n, 512]⟩ [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 512]⟩)
    (p : Fin n) (d : Fin 512) :
    unitVec x hr hφ hacc hc hb (ix2 p d) = unitRow (fun i e => x (ix2 i e)) p d := by
  unfold unitVec unitRow
  rw [mulf_apply, col_bcast]
  show x (ix2 p d) * Ideal.rsqrt (shapeCast ⟨2, ![n, 1]⟩
    (multiReduction .add [1] ⟨1, ![n]⟩ (mulf x x) 0x00000000#32 hr hφ hacc) hc (ix2 p (0 : Fin 1))) = _
  rw [col_cast, lane_sum]
  rfl

/-! The contraction's operand indices, axis by axis. -/

theorem lhs_dot_0 (i : S128x784.Idx) (q : dot_S128x512_S784x512_S128x784_1_1_0_0_n_n.contr.Idx) :
    (dot_S128x512_S784x512_S128x784_1_1_0_0_n_n.lhsIdx i q 0).val = (i 0).val := by
  unfold DotDims.lhsIdx
  rw [dif_neg (show ¬(0 : Fin S128x512.rank) ∈ dot_S128x512_S784x512_S128x784_1_1_0_0_n_n.lhsBatch by decide), dif_pos (show (0 : Fin S128x512.rank) ∈ dot_S128x512_S784x512_S128x784_1_1_0_0_n_n.lhsNonContracting by decide)]
  rfl
theorem lhs_dot_1 (i : S128x784.Idx) (q : dot_S128x512_S784x512_S128x784_1_1_0_0_n_n.contr.Idx) :
    (dot_S128x512_S784x512_S128x784_1_1_0_0_n_n.lhsIdx i q 1).val = (q ⟨0, by decide⟩).val :=
  dot_S128x512_S784x512_S128x784_1_1_0_0_n_n.lhsIdx_val_of_single rfl i q
theorem rhs_dot_0 (i : S128x784.Idx) (q : dot_S128x512_S784x512_S128x784_1_1_0_0_n_n.contr.Idx) :
    (dot_S128x512_S784x512_S128x784_1_1_0_0_n_n.rhsIdx i q 0).val = (i 1).val := by
  unfold DotDims.rhsIdx
  rw [dif_neg (show ¬(0 : Fin S784x512.rank) ∈ dot_S128x512_S784x512_S128x784_1_1_0_0_n_n.rhsBatch by decide), dif_pos (show (0 : Fin S784x512.rank) ∈ dot_S128x512_S784x512_S128x784_1_1_0_0_n_n.rhsNonContracting by decide)]
  rfl
theorem rhs_dot_1 (i : S128x784.Idx) (q : dot_S128x512_S784x512_S128x784_1_1_0_0_n_n.contr.Idx) :
    (dot_S128x512_S784x512_S128x784_1_1_0_0_n_n.rhsIdx i q 1).val = (q ⟨0, by decide⟩).val :=
  dot_S128x512_S784x512_S128x784_1_1_0_0_n_n.rhsIdx_val_of_single rfl i q

/-- The product of a `[128, 512]` and a `[784, 512]` array contracted over the channels, into a zero accumulator,
    read at `(s, n)`: the sum over the channels of the two rows' products. -/
theorem dot_apply {φ₁ φ₂ : FTy} (L : FVec Ideal S128x512 φ₁) (R : FVec Ideal S784x512 φ₂) (s : Fin 128) (n : Fin 784) :
    matmul dot_S128x512_S784x512_S128x784_1_1_0_0_n_n none L R (constant (F := Ideal) S128x784 .f32 0x00000000#32) (ix2 s n)
      = ∑ d : Fin 512, L (ix2 s d) * R (ix2 n d) := by
  simp only [matmul]
  rw [Ideal.matmul_constant_zero_apply, ← Equiv.sum_comp (contrEquiv1 dot_S128x512_S784x512_S128x784_1_1_0_0_n_n 512 rfl rfl).symm]
  refine Finset.sum_congr rfl fun k _ => ?_
  have hk := contrEquiv1_symm_val dot_S128x512_S784x512_S128x784_1_1_0_0_n_n 512 rfl rfl k
  have el : dot_S128x512_S784x512_S128x784_1_1_0_0_n_n.lhsIdx (ix2 s n) ((contrEquiv1 dot_S128x512_S784x512_S128x784_1_1_0_0_n_n 512 rfl rfl).symm k) = ix2 s k := funext fun a => Fin.ext (by
    match a with
    | ⟨0, _⟩ => exact lhs_dot_0 _ _
    | ⟨1, _⟩ => exact (lhs_dot_1 _ _).trans hk)
  have er : dot_S128x512_S784x512_S128x784_1_1_0_0_n_n.rhsIdx (ix2 s n) ((contrEquiv1 dot_S128x512_S784x512_S128x784_1_1_0_0_n_n 512 rfl rfl).symm k) = ix2 n k := funext fun a => Fin.ext (by
    match a with
    | ⟨0, _⟩ => exact rhs_dot_0 _ _
    | ⟨1, _⟩ => exact (rhs_dot_1 _ _).trans hk)
  rw [el, er]

/-- The matrix the body exponentiates, at row `s` and column `n`, is the Gibbs matrix of the two blocks' unit rows. -/
theorem pay2_eq_gibbs (x0 : Vec Ideal S128x512 .f32) (x1 : Vec Ideal S1x784x512 .f32) (s : Fin 128) (n : Fin 784) :
    k0_pay2 (F := Ideal) x0 x1 (ix2 s n)
      = gibbs (unitRow fun s' d => x0 (ix2 s' d)) (unitRow fun n' d => x1 (ix3 (0 : Fin 1) n' d)) s n := by
  -- the leading unit axis of the second block dropped
  have hX : (fun i e => shapeCast S784x512 x1 shapeCasts_S1x784x512_S784x512 (ix2 i e))
      = fun n' d => x1 (ix3 (0 : Fin 1) n' d) :=
    funext fun i => funext fun e => shapeCast_1ab_ab_apply x1 _ i e
  -- the contraction of the two families of unit rows
  have key : matmul dot_S128x512_S784x512_S128x784_1_1_0_0_n_n none
        (truncf .bf16 (unitVec x0 reduces_S128x512_S128 (.inl rfl) rfl shapeCasts_S128_S128x1 broadcasts_S128x1_S128x512) bitsLt_bf16_f32)
        (truncf .bf16 (unitVec (shapeCast S784x512 x1 shapeCasts_S1x784x512_S784x512) reduces_S784x512_S784 (.inl rfl) rfl
          shapeCasts_S784_S784x1 broadcasts_S784x1_S784x512) bitsLt_bf16_f32)
        (constant (F := Ideal) S128x784 .f32 0x00000000#32) (ix2 s n)
      = ∑ d : Fin 512, unitRow (fun s' d => x0 (ix2 s' d)) s d * unitRow (fun n' d => x1 (ix3 (0 : Fin 1) n' d)) n d := by
    refine (dot_apply _ _ s n).trans (Finset.sum_congr rfl fun d _ => ?_)
    rw [truncf_apply, truncf_apply]
    refine congrArg₂ (· * ·) (unitVec_apply x0 _ _ _ _ _ s d) ((unitVec_apply _ _ _ _ _ _ n d).trans ?_)
    rw [hX]
  unfold gibbs
  exact congrArg (fun t => Ideal.exp (Ideal.ofBits .f32 0xC1200000#32 *
    (Ideal.ofBits .f32 0x40000000#32 - Ideal.ofBits .f32 0x40000000#32 * t))) key

end Cert.KernelIdeal.Body

end
-- ==== Proof.KerArray.lean ====
/-
  From blocks to the array. Grid point `t` of the kernel works on batch element `t`: it sees the whole support table, the
  784 × 512 slab `t` of the feature map (the four-axis array re-laid as [128, 784, 512] before the call), and writes slab
  `t` of the result. So what point `t` writes back is slab `t` of the one function `G` of the two argument arrays, the
  128 slabs cover the result, and the result array ends holding `G`.
-/
import proofs.«182227_j41592463294658_1_alg».proof.Proof.Gen.KernelIdeal.Value
import proofs.«182227_j41592463294658_1_alg».proof.Proof.KerPlan
import proofs.«182227_j41592463294658_1_alg».proof.Proof.KerGibbs
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Whole

open Cert.KernelIdeal Cert.KernelIdeal.Gen Cert.KernelIdeal.Value Cert.Transport
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The re-laid feature map at (b, n, d) is the four-axis array at pixel `n` of batch element `b`, channel `d`. -/
theorem relaid_apply {α : Type} (y : S128x28x28x512.Idx → α) (b : Fin 128) (n : Fin 784) (d : Fin 512) :
    shapeCast S128x784x512 y shapeCasts_S128x28x28x512_S128x784x512 (ix3 b n d) = y (pix b n d) := by
  refine shapeCast_apply y shapeCasts_S128x28x28x512_S128x784x512 (ix3 b n d) (pix b n d) ?_
  rw [Shape.rowMajor_val_four, Shape.rowMajor_val_three]
  have hb := b.isLt; have hn := n.isLt; have hd := d.isLt
  show ((b.val * 28 + n.val / 28) * 28 + n.val % 28) * 512 + d.val = (b.val * 784 + n.val) * 512 + d.val
  omega

/-- The printed index maps over the grid: the support table's window stays at block 0, the feature and result windows
    move to slab `t`. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The support window's block at any point is the whole table. -/
theorem blk0_apply (c : Dev nD) (t : Fin cfg0.N) (s : Fin 128) (d : Fin 512) :
    iblk m c 0 t (ix2 s d) = m ((c : Thread nD τ).loc main_arg1) (ix2 s d) := by
  obtain ⟨e0, e1, -⟩ := idx_facts t
  show V m c main_arg1 (((cfg0.win 0).blk t).view.emb (ix2 s d)) = _
  rw [V_main_arg1]
  refine congrArg _ (funext fun a => Fin.ext ?_)
  match a with
  | ⟨0, _⟩ => show win0_0.index t (0 : Fin 2) * 128 + 1 * s.val = s.val; omega
  | ⟨1, _⟩ => show win0_0.index t (1 : Fin 2) * 512 + 1 * d.val = d.val; omega

/-- The array the feature window reads is the four-axis argument re-laid as [128, 784, 512]. -/
theorem V_relaid (c : Dev nD) :
    (V m c main_v0 : S128x784x512.Idx → EReal)
      = shapeCast S128x784x512 (m ((c : Thread nD τ).loc main_arg0)) shapeCasts_S128x28x28x512_S128x784x512 := by
  dsimp only [Gen.V, Gen.hostOps0]; after_results; rfl

/-- The feature window's block at point `t` is slab `t`: pixel `n`, channel `d` of batch element `t`. -/
theorem blk1_apply (c : Dev nD) (t : Fin cfg0.N) (n : Fin 784) (d : Fin 512) :
    iblk m c 1 t (ix3 (0 : Fin 1) n d)
      = m ((c : Thread nD τ).loc main_arg0) (pix (⟨t.val, N_0 ▸ t.isLt⟩ : Fin 128) n d) := by
  obtain ⟨-, -, e0, e1, e2, -⟩ := idx_facts t
  show V m c main_v0 (((cfg0.win 1).blk t).view.emb (ix3 (0 : Fin 1) n d)) = _
  have hidx : ((cfg0.win 1).blk t).view.emb (ix3 (0 : Fin 1) n d) = ix3 (⟨t.val, N_0 ▸ t.isLt⟩ : Fin 128) n d :=
    funext fun a => Fin.ext (by
      match a with
      | ⟨0, _⟩ => show win0_1.index t (0 : Fin 3) * 1 + 1 * 0 = t.val; omega
      | ⟨1, _⟩ => show win0_1.index t (1 : Fin 3) * 784 + 1 * n.val = n.val; omega
      | ⟨2, _⟩ => show win0_1.index t (2 : Fin 3) * 512 + 1 * d.val = d.val; omega)
  rw [V_relaid, hidx]
  exact relaid_apply _ _ n d

/-- Batch element `t` as an index of the leading axis. -/
abbrev slab (t : Fin cfg0.N) : Fin 128 := ⟨t.val, N_0 ▸ t.isLt⟩

/-- WHAT POINT `t` WRITES BACK is slab `t` of `G` of the two argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2]
  obtain ⟨-, -, -, -, -, e0, e1, e2⟩ := idx_facts t
  funext j
  obtain ⟨z, s, n, rfl⟩ : ∃ (z : Fin 1) (s : Fin 128) (n : Fin 784), j = ix3 z s n := ⟨j 0, j 1, j 2, eq_ix3 j⟩
  obtain rfl : z = 0 := Subsingleton.elim _ _
  have hidx : ((cfg0.win 2).blk t).view.emb (ix3 (0 : Fin 1) s n) = ix3 (slab t) s n :=
    funext fun a => Fin.ext (by
      match a with
      | ⟨0, _⟩ => show win0_2.index t (0 : Fin 3) * 1 + 1 * 0 = t.val; omega
      | ⟨1, _⟩ => show win0_2.index t (1 : Fin 3) * 128 + 1 * s.val = s.val; omega
      | ⟨2, _⟩ => show win0_2.index t (2 : Fin 3) * 784 + 1 * n.val = n.val; omega)
  show out0_2 (iblk m c 0 t) (iblk m c 1 t) (ix3 (0 : Fin 1) s n)
    = G (m ((c : Thread nD τ).loc main_arg0)) (m ((c : Thread nD τ).loc main_arg1)) (((cfg0.win 2).blk t).view.emb (ix3 (0 : Fin 1) s n))
  rw [hidx]
  refine (Cert.KernelIdeal.Body.out_eq_plan (iblk m c 0 t) (iblk m c 1 t) s n).trans ?_
  show _ = plan (gibbs (unitRow fun s' d => m ((c : Thread nD τ).loc main_arg1) (ix2 s' d))
    (unitRow fun n' d => m ((c : Thread nD τ).loc main_arg0) (pix (slab t) n' d))) s n
  refine congrArg (fun K => plan K s n) (funext fun s' => funext fun n' => ?_)
  refine (Cert.KernelIdeal.Body.pay2_eq_gibbs (iblk m c 0 t) (iblk m c 1 t) s' n').trans ?_
  refine congrArg₂ (fun T X => gibbs (unitRow T) (unitRow X) s' n') ?_ ?_
  · exact funext fun s'' => funext fun d => blk0_apply m c t s'' d
  · exact funext fun n'' => funext fun d => blk1_apply m c t n'' d

/-- An index of the result array is in point `t`'s block iff each coordinate is in the block's range on its axis. -/
theorem mem_blk (t : Fin cfg0.N) (i : S128x128x784.Idx) :
    i ∈ ((cfg0.win 2).blk t).view.set ↔ ∀ a : Fin 3, win0_2.index t a * S1x128x784.size a ≤ (i a).val
      ∧ (i a).val < win0_2.index t a * S1x128x784.size a + S1x128x784.size a := by
  show i ∈ ((View.whole main_v1).slice (win0_2.rect t)).set ↔ _
  rw [View.set_slice_whole, Rect.mem_set_unit]
  exact Iff.rfl

/-- The 128 slabs cover the result array: index `i` lies in the block of the point whose number is its leading coordinate. -/
theorem cover (i : S128x128x784.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 784 := (i 2).isLt
  have ht : (i 0).val < grid0.N := N_0.symm ▸ hi0
  refine ⟨⟨(i 0).val, ht⟩, flush0_2 _, ?_⟩
  obtain ⟨-, -, -, -, -, e0, e1, e2⟩ := idx_facts ⟨(i 0).val, ht⟩
  have e0' : win0_2.index (⟨(i 0).val, ht⟩ : Fin cfg0.N) (0 : Fin 3) = (i 0).val := e0
  rw [mem_blk]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 128 ≤ (i 1).val ∧ (i 1).val < win0_2.index _ (1 : Fin 3) * 128 + 128; omega
  | ⟨2, _⟩ => show win0_2.index _ (2 : Fin 3) * 784 ≤ (i 2).val ∧ (i 2).val < win0_2.index _ (2 : Fin 3) * 784 + 784; omega

/-- THE RESULT ARRAY after the run is `G` of the two argument arrays. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The kernel's run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefPlan.lean ====
import proofs.«182227_j41592463294658_1_alg».proof.Proof.Gen.ReferenceIdeal.Read
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Cert.Transport Idealize.ShloMosaic Idealize.ShloMosaic.ValueIdx

/-- The column contraction read at an index: the sum over the contracted axis of the products. -/
theorem dotCol_apply (U : FVec Ideal S128x1x128 .f32) (KK : FVec Ideal S128x128x784 .f32) (i : S128x1x784.Idx) :
    Host.dotGeneral (F := Ideal) dot_S128x1x128_S128x128x784_S128x1x784_2_1_1_2_0_0 none U KK i
      = ∑ k : Fin 128, U (lidx_main_v26 i k) * KK (ridx_main_v26 i k) := by
  simp only [Host.dotGeneral]
  rw [Ideal.dotGeneral_apply, ← Equiv.sum_comp (ValueIdx.contrEquiv1 dot_S128x1x128_S128x128x784_S128x1x784_2_1_1_2_0_0 128 rfl rfl).symm]
  refine Finset.sum_congr rfl fun k _ => ?_
  have hk := ValueIdx.contrEquiv1_symm_val dot_S128x1x128_S128x128x784_S128x1x784_2_1_1_2_0_0 128 rfl rfl k
  have el : dot_S128x1x128_S128x128x784_S128x1x784_2_1_1_2_0_0.lhsIdx i ((ValueIdx.contrEquiv1 dot_S128x1x128_S128x128x784_S128x1x784_2_1_1_2_0_0 128 rfl rfl).symm k) = lidx_main_v26 i k := funext fun a => Fin.ext (by
    match a with
    | ⟨0, _⟩ => exact lhs_main_v26_0 _ _
    | ⟨1, _⟩ => exact lhs_main_v26_1 _ _
    | ⟨2, _⟩ => exact (lhs_main_v26_2 _ _).trans hk)
  have er : dot_S128x1x128_S128x128x784_S128x1x784_2_1_1_2_0_0.rhsIdx i ((ValueIdx.contrEquiv1 dot_S128x1x128_S128x128x784_S128x1x784_2_1_1_2_0_0 128 rfl rfl).symm k) = ridx_main_v26 i k := funext fun a => Fin.ext (by
    match a with
    | ⟨0, _⟩ => exact rhs_main_v26_0 _ _
    | ⟨1, _⟩ => exact (rhs_main_v26_1 _ _).trans hk
    | ⟨2, _⟩ => exact rhs_main_v26_2 _ _)
  rw [el, er]

/-- The row contraction read at an index: the sum over the contracted axis of the products. -/
theorem dotRow_apply (V : FVec Ideal S128x1x784 .f32) (KT : FVec Ideal S128x784x128 .f32) (i : S128x1x128.Idx) :
    Host.dotGeneral (F := Ideal) dot_S128x1x784_S128x784x128_S128x1x128_2_1_1_2_0_0 none V KT i
      = ∑ k : Fin 784, V (lidx_main_v31 i k) * KT (ridx_main_v31 i k) := by
  simp only [Host.dotGeneral]
  rw [Ideal.dotGeneral_apply, ← Equiv.sum_comp (ValueIdx.contrEquiv1 dot_S128x1x784_S128x784x128_S128x1x128_2_1_1_2_0_0 784 rfl rfl).symm]
  refine Finset.sum_congr rfl fun k _ => ?_
  have hk := ValueIdx.contrEquiv1_symm_val dot_S128x1x784_S128x784x128_S128x1x128_2_1_1_2_0_0 784 rfl rfl k
  have el : dot_S128x1x784_S128x784x128_S128x1x128_2_1_1_2_0_0.lhsIdx i ((ValueIdx.contrEquiv1 dot_S128x1x784_S128x784x128_S128x1x128_2_1_1_2_0_0 784 rfl rfl).symm k) = lidx_main_v31 i k := funext fun a => Fin.ext (by
    match a with
    | ⟨0, _⟩ => exact lhs_main_v31_0 _ _
    | ⟨1, _⟩ => exact lhs_main_v31_1 _ _
    | ⟨2, _⟩ => exact (lhs_main_v31_2 _ _).trans hk)
  have er : dot_S128x1x784_S128x784x128_S128x1x128_2_1_1_2_0_0.rhsIdx i ((ValueIdx.contrEquiv1 dot_S128x1x784_S128x784x128_S128x1x128_2_1_1_2_0_0 784 rfl rfl).symm k) = ridx_main_v31 i k := funext fun a => Fin.ext (by
    match a with
    | ⟨0, _⟩ => exact rhs_main_v31_0 _ _
    | ⟨1, _⟩ => exact (rhs_main_v31_1 _ _).trans hk
    | ⟨2, _⟩ => exact rhs_main_v31_2 _ _)
  rw [el, er]

/-- One column scaling: the quotient of the constant `q` by the contraction plus `ε`, at batch `b`, column `n`. -/
theorem colStep (U : FVec Ideal S128x1x128 .f32) (KK : FVec Ideal S128x128x784 .f32) (b : Fin 128) (n : Fin 784) :
    Host.divf (F := Ideal) (val_main_v29 (F := Ideal))
        (addf (Host.dotGeneral (F := Ideal) dot_S128x1x128_S128x128x784_S128x1x784_2_1_1_2_0_0 none U KK) (val_main_v27 (F := Ideal))) (ix3 b (0 : Fin 1) n)
      = colScale (fun s' n' => KK (ix3 b s' n')) (fun s' => U (ix3 b (0 : Fin 1) s')) n := by
  show Ideal.div (val_main_v29 (F := Ideal) (ix3 b (0 : Fin 1) n))
      (Host.dotGeneral (F := Ideal) dot_S128x1x128_S128x128x784_S128x1x784_2_1_1_2_0_0 none U KK (ix3 b (0 : Fin 1) n) + val_main_v27 (F := Ideal) (ix3 b (0 : Fin 1) n)) = _
  rw [dotCol_apply]
  unfold colScale
  refine congrArg₂ Ideal.div rfl (congrArg₂ (· + ·) (Finset.sum_congr rfl fun k _ => ?_) rfl)
  have e1 : lidx_main_v26 (ix3 b (0 : Fin 1) n) k = ix3 b (0 : Fin 1) k := by
    funext a; match a with | ⟨0, _⟩ => rfl | ⟨1, _⟩ => rfl | ⟨2, _⟩ => rfl
  have e2 : ridx_main_v26 (ix3 b (0 : Fin 1) n) k = ix3 b k n := by
    funext a; match a with | ⟨0, _⟩ => rfl | ⟨1, _⟩ => rfl | ⟨2, _⟩ => rfl
  rw [e1, e2]

/-- One row scaling: the quotient of the constant `p` by the contraction with the transposed matrix plus `ε`. -/
theorem rowStep (V : FVec Ideal S128x1x784 .f32) (KK : FVec Ideal S128x128x784 .f32) (b : Fin 128) (s : Fin 128) :
    Host.divf (F := Ideal) (val_main_v34 (F := Ideal))
        (addf (Host.dotGeneral (F := Ideal) dot_S128x1x784_S128x784x128_S128x1x128_2_1_1_2_0_0 none V
          (transpose S128x784x128 [0, 2, 1] KK transposes_S128x128x784_S128x784x128_0_2_1)) (val_main_v32 (F := Ideal))) (ix3 b (0 : Fin 1) s)
      = rowScale (fun s' n' => KK (ix3 b s' n')) (fun n' => V (ix3 b (0 : Fin 1) n')) s := by
  show Ideal.div (val_main_v34 (F := Ideal) (ix3 b (0 : Fin 1) s))
      (Host.dotGeneral (F := Ideal) dot_S128x1x784_S128x784x128_S128x1x128_2_1_1_2_0_0 none V (transpose S128x784x128 [0, 2, 1] KK transposes_S128x128x784_S128x784x128_0_2_1) (ix3 b (0 : Fin 1) s)
        + val_main_v32 (F := Ideal) (ix3 b (0 : Fin 1) s)) = _
  rw [dotRow_apply]
  unfold rowScale
  refine congrArg₂ Ideal.div rfl (congrArg₂ (· + ·) (Finset.sum_congr rfl fun k _ => ?_) rfl)
  have e1 : lidx_main_v31 (ix3 b (0 : Fin 1) s) k = ix3 b (0 : Fin 1) k := by
    funext a; match a with | ⟨0, _⟩ => rfl | ⟨1, _⟩ => rfl | ⟨2, _⟩ => rfl
  have e2 : transpose S128x784x128 [0, 2, 1] KK transposes_S128x128x784_S128x784x128_0_2_1 (ridx_main_v31 (ix3 b (0 : Fin 1) s) k)
      = KK (ix3 b s k) :=
    transpose_apply [0, 2, 1] KK transposes_S128x128x784_S128x784x128_0_2_1 _ (ix3 b s k) (fun c => match c with
      | ⟨0, _⟩ => rfl
      | ⟨1, _⟩ => rfl
      | ⟨2, _⟩ => rfl)
  rw [e1, e2]

/-- One full round keeps the invariant: the row scaling after `k` rounds goes to the one after `k + 1`. -/
theorem roundStep (KK : FVec Ideal S128x128x784 .f32) (U : FVec Ideal S128x1x128 .f32) (k : ℕ)
    (hU : ∀ (b : Fin 128) (s : Fin 128), U (ix3 b (0 : Fin 1) s) = rowIter (fun s' n' => KK (ix3 b s' n')) k s)
    (b : Fin 128) (s : Fin 128) :
    Host.divf (F := Ideal) (val_main_v34 (F := Ideal))
        (addf (Host.dotGeneral (F := Ideal) dot_S128x1x784_S128x784x128_S128x1x128_2_1_1_2_0_0 none
          (Host.divf (F := Ideal) (val_main_v29 (F := Ideal))
            (addf (Host.dotGeneral (F := Ideal) dot_S128x1x128_S128x128x784_S128x1x784_2_1_1_2_0_0 none U KK) (val_main_v27 (F := Ideal))))
          (transpose S128x784x128 [0, 2, 1] KK transposes_S128x128x784_S128x784x128_0_2_1)) (val_main_v32 (F := Ideal))) (ix3 b (0 : Fin 1) s)
      = rowIter (fun s' n' => KK (ix3 b s' n')) (k + 1) s := by
  refine (rowStep _ KK b s).trans ?_
  have hv : (fun n' : Fin 784 => Host.divf (F := Ideal) (val_main_v29 (F := Ideal))
        (addf (Host.dotGeneral (F := Ideal) dot_S128x1x128_S128x128x784_S128x1x784_2_1_1_2_0_0 none U KK) (val_main_v27 (F := Ideal))) (ix3 b (0 : Fin 1) n'))
      = colScale (fun s' n' => KK (ix3 b s' n')) (rowIter (fun s' n' => KK (ix3 b s' n')) k) :=
    funext fun n => (colStep U KK b n).trans
      (congrArg (fun u => colScale (fun s' n' => KK (ix3 b s' n')) u n) (funext fun s' => hU b s'))
  exact congrArg (fun v => rowScale (fun s' n' => KK (ix3 b s' n')) v s) hv

/-- The reference's result at batch element `b`, row `s`, column `n` is the transport plan of that batch element's
    Gibbs matrix (the stage `%21`). -/
theorem result_eq_plan (x0 : (⟨S128x28x28x512, .f32⟩ : BufTy).Contents (Elt Ideal)) (x1 : (⟨S128x512, .f32⟩ : BufTy).Contents (Elt Ideal))
    (b : Fin 128) (s : Fin 128) (n : Fin 784) :
    val_main_v135 (F := Ideal) x0 x1 (ix3 b s n)
      = plan (fun s' n' => val_main_v21 (F := Ideal) x0 x1 (ix3 b s' n')) s n := by
  have hu0 : ∀ (b s : Fin 128), val_main_v24 (F := Ideal) (ix3 b (0 : Fin 1) s)
      = rowIter (fun s' n' => val_main_v21 (F := Ideal) x0 x1 (ix3 b s' n')) 0 s := fun b s => by
    rw [val_main_v24_apply]; rfl
  have hu1 : ∀ (b s : Fin 128), val_main_v35 (F := Ideal) x0 x1 (ix3 b (0 : Fin 1) s)
      = rowIter (fun s' n' => val_main_v21 (F := Ideal) x0 x1 (ix3 b s' n')) 1 s :=
    roundStep (val_main_v21 (F := Ideal) x0 x1) (val_main_v24 (F := Ideal)) 0 hu0
  have hu2 : ∀ (b s : Fin 128), val_main_v45 (F := Ideal) x0 x1 (ix3 b (0 : Fin 1) s)
      = rowIter (fun s' n' => val_main_v21 (F := Ideal) x0 x1 (ix3 b s' n')) 2 s :=
    roundStep (val_main_v21 (F := Ideal) x0 x1) (val_main_v35 (F := Ideal) x0 x1) 1 hu1
  have hu3 : ∀ (b s : Fin 128), val_main_v55 (F := Ideal) x0 x1 (ix3 b (0 : Fin 1) s)
      = rowIter (fun s' n' => val_main_v21 (F := Ideal) x0 x1 (ix3 b s' n')) 3 s :=
    roundStep (val_main_v21 (F := Ideal) x0 x1) (val_main_v45 (F := Ideal) x0 x1) 2 hu2
  have hu4 : ∀ (b s : Fin 128), val_main_v65 (F := Ideal) x0 x1 (ix3 b (0 : Fin 1) s)
      = rowIter (fun s' n' => val_main_v21 (F := Ideal) x0 x1 (ix3 b s' n')) 4 s :=
    roundStep (val_main_v21 (F := Ideal) x0 x1) (val_main_v55 (F := Ideal) x0 x1) 3 hu3
  have hu5 : ∀ (b s : Fin 128), val_main_v75 (F := Ideal) x0 x1 (ix3 b (0 : Fin 1) s)
      = rowIter (fun s' n' => val_main_v21 (F := Ideal) x0 x1 (ix3 b s' n')) 5 s :=
    roundStep (val_main_v21 (F := Ideal) x0 x1) (val_main_v65 (F := Ideal) x0 x1) 4 hu4
  have hu6 : ∀ (b s : Fin 128), val_main_v85 (F := Ideal) x0 x1 (ix3 b (0 : Fin 1) s)
      = rowIter (fun s' n' => val_main_v21 (F := Ideal) x0 x1 (ix3 b s' n')) 6 s :=
    roundStep (val_main_v21 (F := Ideal) x0 x1) (val_main_v75 (F := Ideal) x0 x1) 5 hu5
  have hu7 : ∀ (b s : Fin 128), val_main_v95 (F := Ideal) x0 x1 (ix3 b (0 : Fin 1) s)
      = rowIter (fun s' n' => val_main_v21 (F := Ideal) x0 x1 (ix3 b s' n')) 7 s :=
    roundStep (val_main_v21 (F := Ideal) x0 x1) (val_main_v85 (F := Ideal) x0 x1) 6 hu6
  have hu8 : ∀ (b s : Fin 128), val_main_v105 (F := Ideal) x0 x1 (ix3 b (0 : Fin 1) s)
      = rowIter (fun s' n' => val_main_v21 (F := Ideal) x0 x1 (ix3 b s' n')) 8 s :=
    roundStep (val_main_v21 (F := Ideal) x0 x1) (val_main_v95 (F := Ideal) x0 x1) 7 hu7
  have hu9 : ∀ (b s : Fin 128), val_main_v115 (F := Ideal) x0 x1 (ix3 b (0 : Fin 1) s)
      = rowIter (fun s' n' => val_main_v21 (F := Ideal) x0 x1 (ix3 b s' n')) 9 s :=
    roundStep (val_main_v21 (F := Ideal) x0 x1) (val_main_v105 (F := Ideal) x0 x1) 8 hu8
  have hu10 : ∀ (b s : Fin 128), val_main_v125 (F := Ideal) x0 x1 (ix3 b (0 : Fin 1) s)
      = rowIter (fun s' n' => val_main_v21 (F := Ideal) x0 x1 (ix3 b s' n')) 10 s :=
    roundStep (val_main_v21 (F := Ideal) x0 x1) (val_main_v115 (F := Ideal) x0 x1) 9 hu9
  have hv : val_main_v130 (F := Ideal) x0 x1 (ix3 b (0 : Fin 1) n)
      = colScale (fun s' n' => val_main_v21 (F := Ideal) x0 x1 (ix3 b s' n'))
          (rowIter (fun s' n' => val_main_v21 (F := Ideal) x0 x1 (ix3 b s' n')) 10) n :=
    (colStep (val_main_v125 (F := Ideal) x0 x1) (val_main_v21 (F := Ideal) x0 x1) b n).trans
      (congrArg (fun u => colScale (fun s' n' => val_main_v21 (F := Ideal) x0 x1 (ix3 b s' n')) u n) (funext fun s' => hu10 b s'))
  have e1 : idx_main_v131 (idx_main_v132 (ix3 b s n)) = ix3 b (0 : Fin 1) s := by
    funext a; match a with | ⟨0, _⟩ => rfl | ⟨1, _⟩ => rfl | ⟨2, _⟩ => rfl
  have e2 : idx_main_v134 (ix3 b s n) = ix3 b (0 : Fin 1) n := by
    funext a; match a with | ⟨0, _⟩ => rfl | ⟨1, _⟩ => rfl | ⟨2, _⟩ => rfl
  rw [val_main_v135_apply, val_main_v133_apply, val_main_v134_apply, val_main_v132_apply, val_main_v131_apply, e1, e2,
    hu10 b s, hv]
  rfl

end Cert.ReferenceIdeal.Stages

end
-- ==== Proof.RefGibbs.lean ====
import proofs.«182227_j41592463294658_1_alg».proof.Proof.Gen.ReferenceIdeal.Read
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Cert.Transport Idealize.ShloMosaic Idealize.ShloMosaic.ValueIdx

/-- The sum of squares of row `s` of the support table, as the reference's reduction computes it. -/
theorem v1_sumsq (x1 : (⟨S128x512, .f32⟩ : BufTy).Contents (Elt Ideal)) (s : Fin 128) :
    val_main_v1 (F := Ideal) x1 (ix1 s) = ∑ e : Fin 512, x1 (ix2 s e) * x1 (ix2 s e) := by
  refine (val_main_v1_apply x1 (ix1 s)).trans ?_
  rw [val_main_cst_apply, Ideal.ofBits_def, Ideal.ofBits_zero_f32, zero_add]
  refine Finset.sum_congr rfl fun k _ => ?_
  have e : idx_main_v1 (ix1 s) k = ix2 s k :=
    funext fun a => Fin.ext (by match a with | ⟨0, _⟩ => rfl | ⟨1, _⟩ => rfl)
  rw [val_main_v0_apply, Ideal.mulf_def, e]

/-- The reference's unit row of the support table is the specification's. -/
theorem v5_unitRow (x1 : (⟨S128x512, .f32⟩ : BufTy).Contents (Elt Ideal))
    (h1 : ∀ s : Fin 128, 0 < ∑ d : Fin 512, x1 (ix2 s d) * x1 (ix2 s d)) (s : Fin 128) (d : Fin 512) :
    val_main_v5 (F := Ideal) x1 (ix2 s d) = unitRow (fun s' d => x1 (ix2 s' d)) s d := by
  have e : idx_main_v2 (idx_main_v4 (ix2 s d)) = ix1 s :=
    funext fun a => Fin.ext (by match a with | ⟨0, _⟩ => rfl)
  rw [val_main_v5_apply, val_main_v4_apply, val_main_v3_apply, val_main_v2_apply, e, v1_sumsq,
    Ideal.hostDivf_def, Ideal.hostUnary_sqrt_def]
  exact (mul_rsqrt_eq_div_sqrt _ _ (h1 s)).symm

/-- The sum of squares of pixel `n` of batch element `b`, as the reference's reduction computes it. -/
theorem v7_sumsq (x0 : (⟨S128x28x28x512, .f32⟩ : BufTy).Contents (Elt Ideal)) (b : Fin 128) (n : Fin 784) (d : Fin 512) :
    val_main_v7 (F := Ideal) x0 (idx_main_v8 (idx_main_v10 (pix b n d)))
      = ∑ e : Fin 512, x0 (pix b n e) * x0 (pix b n e) := by
  refine (val_main_v7_apply x0 _).trans ?_
  rw [val_main_cst_0_apply, Ideal.ofBits_def, Ideal.ofBits_zero_f32, zero_add]
  refine Finset.sum_congr rfl fun k _ => ?_
  have e : idx_main_v7 (idx_main_v8 (idx_main_v10 (pix b n d))) k = pix b n k :=
    funext fun a => Fin.ext (by match a with | ⟨0, _⟩ => rfl | ⟨1, _⟩ => rfl | ⟨2, _⟩ => rfl | ⟨3, _⟩ => rfl)
  rw [val_main_v6_apply, Ideal.mulf_def, e]

/-- The reference's unit row of the feature map is the specification's. -/
theorem v11_unitRow (x0 : (⟨S128x28x28x512, .f32⟩ : BufTy).Contents (Elt Ideal))
    (h0 : ∀ (b : Fin 128) (n : Fin 784), 0 < ∑ d : Fin 512, x0 (pix b n d) * x0 (pix b n d))
    (b : Fin 128) (n : Fin 784) (d : Fin 512) :
    val_main_v11 (F := Ideal) x0 (pix b n d) = unitRow (fun n' d => x0 (pix b n' d)) n d := by
  rw [val_main_v11_apply, val_main_v10_apply, val_main_v9_apply, val_main_v8_apply, v7_sumsq,
    Ideal.hostDivf_def, Ideal.hostUnary_sqrt_def]
  exact (mul_rsqrt_eq_div_sqrt _ _ (h0 b n)).symm

/-- The reshape to `[128, 784, 512]` reads the four-axis array at pixel `n`. -/
theorem idx12_pix (b : Fin 128) (n : Fin 784) (d : Fin 512) : idx_main_v12 (ix3 b n d) = pix b n d := by
  have hb := b.isLt
  have hn := n.isLt
  have hd := d.isLt
  refine funext fun a => Fin.ext ?_
  match a with
  | ⟨0, _⟩ => show ((b.val * 784 + n.val) * 512 + d.val) / 401408 = b.val; omega
  | ⟨1, _⟩ => show ((b.val * 784 + n.val) * 512 + d.val) / 14336 % 28 = n.val / 28; omega
  | ⟨2, _⟩ => show ((b.val * 784 + n.val) * 512 + d.val) / 512 % 28 = n.val % 28; omega
  | ⟨3, _⟩ => show ((b.val * 784 + n.val) * 512 + d.val) % 512 = d.val; omega

/-- Where every row has a positive sum of squares, the reference's exponentiated matrix (the stage `%21`) at batch
    element `b`, row `s`, column `n` is the Gibbs matrix of the unit rows. -/
theorem v21_eq_gibbs (x0 : (⟨S128x28x28x512, .f32⟩ : BufTy).Contents (Elt Ideal)) (x1 : (⟨S128x512, .f32⟩ : BufTy).Contents (Elt Ideal))
    (h0 : ∀ (b : Fin 128) (n : Fin 784), 0 < ∑ d : Fin 512, x0 (pix b n d) * x0 (pix b n d))
    (h1 : ∀ s : Fin 128, 0 < ∑ d : Fin 512, x1 (ix2 s d) * x1 (ix2 s d))
    (b : Fin 128) (s : Fin 128) (n : Fin 784) :
    val_main_v21 (F := Ideal) x0 x1 (ix3 b s n)
      = gibbs (unitRow fun s' d => x1 (ix2 s' d)) (unitRow fun n' d => x0 (pix b n' d)) s n := by
  have hdot : val_main_v14 (F := Ideal) x0 x1 (ix3 b s n)
      = ∑ d : Fin 512, unitRow (fun s' d => x1 (ix2 s' d)) s d * unitRow (fun n' d => x0 (pix b n' d)) n d := by
    rw [val_main_v14_apply]
    refine (val_main_v13_apply x0 x1 _).trans ?_
    refine Finset.sum_congr rfl fun k _ => ?_
    have el : lidx_main_v13 (idx_main_v14 (ix3 b s n)) k = ix3 b n k :=
      funext fun a => Fin.ext (by match a with | ⟨0, _⟩ => rfl | ⟨1, _⟩ => rfl | ⟨2, _⟩ => rfl)
    have er : ridx_main_v13 (idx_main_v14 (ix3 b s n)) k = ix2 s k :=
      funext fun a => Fin.ext (by match a with | ⟨0, _⟩ => rfl | ⟨1, _⟩ => rfl)
    rw [el, er, val_main_v12_apply, idx12_pix, v11_unitRow x0 h0, v5_unitRow x1 h1]
    exact mul_comm _ _
  rw [val_main_v21_apply, val_main_v20_apply, val_main_v19_apply, val_main_cst_3_apply, val_main_v18_apply,
    val_main_v17_apply, val_main_cst_2_apply, val_main_v16_apply, val_main_v15_apply, val_main_cst_1_apply, hdot]
  rfl

end Cert.ReferenceIdeal.Stages

end
-- ==== Proof.PreFacts.lean ====
import proofs.«182227_j41592463294658_1_alg».proof.Pre_finite_inputs
import proofs.«182227_j41592463294658_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll
import Idealize.ShloMosaic.Lib.StableHlo.Predicate

noncomputable section

namespace Cert.Pre_finite_inputs.Rows

open Cert.Pre_finite_inputs Cert.Transport Idealize.ShloMosaic Idealize.ShloMosaic.ValueIdx

/-- A strict comparison `a > b` at the extended reals that came out 1 says `b < a`. -/
theorem cmp_ogt_eq_one {a b : EReal} (e : Ideal.cmp .ogt a b = 1#1) : b < a := by
  unfold Ideal.cmp at e
  by_contra hlt
  simp [hlt] at e

/-- The precondition's two added conjuncts, read at the extended reals: every pixel's channel vector and every row of the
    support table has a positive sum of squares. -/
theorem rows_pos [Cert.Pre_finite_inputs.Facts] (x0 : FVec Ideal S128x28x28x512 .f32) (x1 : FVec Ideal S128x512 .f32)
    (h : Cert.Pre_finite_inputs.fn (F := Ideal) x0 x1 = fun _ => 1#1) :
    (∀ (b : Fin 128) (n : Fin 784), 0 < ∑ d : Fin 512, x0 (pix b n d) * x0 (pix b n d))
      ∧ (∀ s : Fin 128, 0 < ∑ d : Fin 512, x1 (ix2 s d) * x1 (ix2 s d)) := by
  -- the rank-zero shape has one index, so a conjunction over all axes that is 1 is 1 at every element
  haveI : Subsingleton S_.Idx := ⟨fun a b => funext fun d => d.elim0⟩
  have h' := congrFun h ValueIdx.ix0
  dsimp only [Cert.Pre_finite_inputs.fn, Cert.Pre_finite_inputs.fn_part1] at h'
  -- the result is the conjunction of four conjunctions; the last two are the positivity of the sums of squares
  obtain ⟨h14, h19⟩ := IntOp.andi_eq_one.1 h'
  obtain ⟨_, h13⟩ := IntOp.andi_eq_one.1 h14
  clear h' h14 h
  refine ⟨fun b n => ?_, fun s => ?_⟩
  · -- pixel `n` is at row `n / 28`, column `n % 28` of the map
    have e := Host.reduce_andi_all _ _ _ _ _ h13
      (ix3 b (⟨n.val / 28, by have := n.isLt; omega⟩ : Fin 28) (⟨n.val % 28, by omega⟩ : Fin 28))
    rw [cmpf_apply, Ideal.cmpf_def] at e
    have e' := cmp_ogt_eq_one e
    have hR : S128x28x28x512.Reduces [3] S128x28x28 := by decide
    -- the sum over the channel axis is zero plus the sum of the squares over the channel coordinate
    have e2 := e'.trans_eq
      (Ideal.hostReduceAdd_single Facts.reducesTo_S128x28x28x512_S128x28x28_d3 hR (mulf x0 x0) _ _)
    rw [StableHlo.Predicate.bcast_scalar _ Facts.h_S_] at e2
    simp only [constant_apply, Ideal.ofBits_zero_f32, zero_add] at e2
    refine lt_of_lt_of_eq e2 (Finset.sum_congr rfl fun d _ => ?_)
    have hd : hR.lift (ix3 b (⟨n.val / 28, by have := n.isLt; omega⟩ : Fin 28) (⟨n.val % 28, by omega⟩ : Fin 28)) d
        = pix b n d :=
      funext fun a => Fin.ext (by
        match a with
        | ⟨0, _⟩ => rfl
        | ⟨1, _⟩ => rfl
        | ⟨2, _⟩ => rfl
        | ⟨3, _⟩ => rfl)
    exact congrArg (fun i => x0 i * x0 i) hd
  · have e := Host.reduce_andi_all _ _ _ _ _ h19 (ix1 s)
    rw [cmpf_apply, Ideal.cmpf_def] at e
    have e' := cmp_ogt_eq_one e
    have hR : S128x512.Reduces [1] S128 := by decide
    have e2 := e'.trans_eq
      (Ideal.hostReduceAdd_single Facts.reducesTo_S128x512_S128_d1 hR (mulf x1 x1) _ _)
    rw [StableHlo.Predicate.bcast_scalar _ Facts.h_S_] at e2
    simp only [constant_apply, Ideal.ofBits_zero_f32, zero_add] at e2
    refine lt_of_lt_of_eq e2 (Finset.sum_congr rfl fun d _ => ?_)
    have hd : hR.lift (ix1 s) d = ix2 s d :=
      funext fun a => Fin.ext (by
        match a with
        | ⟨0, _⟩ => rfl
        | ⟨1, _⟩ => rfl)
    exact congrArg (fun i => x1 i * x1 i) hd

end Cert.Pre_finite_inputs.Rows

end
-- ==== Proof.lean ====
/-
  The certificate of the Sinkhorn transport-plan kernel against its batched jnp reference.

  Both programs compute, for each of the 128 batch elements, the plan `u_s · K s n · v_n` of the Gibbs matrix
  `K s n = exp (-10 · (2 - 2 · ⟨t_s, x_n⟩))` of unit-normalised rows after ten scaling rounds (Proof/Spec.lean: `G`).
  The kernel's side: the body's stores at one grid point are that plan of the point's blocks (Proof/KerPlan.lean,
  Proof/KerGibbs.lean), and the 128 slabs make up the array (Proof/KerArray.lean). The reference's side: its stages from
  the exponential on are the same ten rounds (Proof/RefPlan.lean), and its exponentiated matrix is the same Gibbs matrix
  wherever every row has a positive sum of squares (Proof/RefGibbs.lean): the reference divides a row by the square root of
  its sum of squares where the kernel multiplies by the reciprocal square root, and the two agree exactly when that sum is
  not zero. The precondition's two added conjuncts say so (Proof/PreFacts.lean). No ideal-pass rewrite was applied, so the
  idealisation claim is trivial.
-/
import proofs.«182227_j41592463294658_1_alg».proof.Defs
import proofs.«182227_j41592463294658_1_alg».proof.Proof.Gen.Kernel
import proofs.«182227_j41592463294658_1_alg».proof.Proof.Gen.Kernel.Skeleton
import proofs.«182227_j41592463294658_1_alg».proof.Proof.Gen.Kernel.Launch
import proofs.«182227_j41592463294658_1_alg».proof.Proof.Gen.Kernel.Points
import proofs.«182227_j41592463294658_1_alg».proof.Proof.Gen.Kernel.Frame
import proofs.«182227_j41592463294658_1_alg».proof.Proof.Gen.KernelIdeal
import proofs.«182227_j41592463294658_1_alg».proof.Proof.Gen.KernelIdeal.Skeleton
import proofs.«182227_j41592463294658_1_alg».proof.Proof.Gen.KernelIdeal.Launch
import proofs.«182227_j41592463294658_1_alg».proof.Proof.Gen.KernelIdeal.Points
import proofs.«182227_j41592463294658_1_alg».proof.Proof.Gen.KernelIdeal.Frame
import proofs.«182227_j41592463294658_1_alg».proof.Proof.Gen.ReferenceIdeal
import proofs.«182227_j41592463294658_1_alg».proof.Proof.Gen.Pre_finite_inputs
import proofs.«182227_j41592463294658_1_alg».proof.Proof.Gen.KernelIdeal.Value
import proofs.«182227_j41592463294658_1_alg».proof.Proof.KerArray
import proofs.«182227_j41592463294658_1_alg».proof.Proof.RefPlan
import proofs.«182227_j41592463294658_1_alg».proof.Proof.RefGibbs
import proofs.«182227_j41592463294658_1_alg».proof.Proof.PreFacts
import proofs.«182227_j41592463294658_1_alg».proof.Proof.Gen.ReferenceIdeal.Run
import proofs.«182227_j41592463294658_1_alg».proof.Proof.Gen.ReferenceIdeal.Read
import Idealize.ShloMosaic.Adequacy
import Idealize.ShloMosaic.Init

noncomputable section

namespace Cert.Proof

open Idealize.ShloMosaic Idealize.SL.Sem Cert.Kernel

open Cert.Transport Idealize.ShloMosaic.ValueIdx

/-- The reference's result array is `G` of its two argument arrays wherever the precondition holds of them. -/
theorem reference_eq (x0 : (⟨Cert.ReferenceIdeal.S128x28x28x512, .f32⟩ : BufTy).Contents (Elt Ideal))
    (x1 : (⟨Cert.ReferenceIdeal.S128x512, .f32⟩ : BufTy).Contents (Elt Ideal))
    (h : Cert.Pre_finite_inputs.fn (F := Ideal) x0 x1 = fun _ => 1#1) :
    Cert.ReferenceIdeal.Read.val_main_v135 (F := Ideal) x0 x1 = G x0 x1 := by
  obtain ⟨h0, h1⟩ := Cert.Pre_finite_inputs.Rows.rows_pos x0 x1 h
  funext i
  obtain ⟨b, s, n, rfl⟩ : ∃ (b : Fin 128) (s : Fin 128) (n : Fin 784), i = ix3 b s n := ⟨i 0, i 1, i 2, eq_ix3 i⟩
  refine (Cert.ReferenceIdeal.Stages.result_eq_plan x0 x1 b s n).trans ?_
  show _ = plan (gibbs (unitRow fun s' d => x1 (ix2 s' d)) (unitRow fun n' d => x0 (pix b n' d))) s n
  exact congrArg (fun K => plan K s n)
    (funext fun s' => funext fun n' => Cert.ReferenceIdeal.Stages.v21_eq_gibbs x0 x1 h0 h1 b s' n')

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at `G` of the kernel's arguments. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq, (hagree c).1, (hagree c).2]
  exact reference_eq _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
